-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S65536x32 : Shape := ⟨2, ![65536, 32]⟩
abbrev S64x256 : Shape := ⟨2, ![64, 256]⟩
abbrev S64x64 : Shape := ⟨2, ![64, 64]⟩
abbrev S4096x32 : Shape := ⟨2, ![4096, 32]⟩
abbrev S4096 : Shape := ⟨1, ![4096]⟩
abbrev S65536 : Shape := ⟨1, ![65536]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S64x256 : S_.BroadcastsInDim S64x256 (![] : Fin 0 → Fin S64x256.rank)
  reducesTo_S64x256_S_d0_1 : S64x256.ReducesTo [0, 1] S_
  bcast_S_S64x64 : S_.BroadcastsInDim S64x64 (![] : Fin 0 → Fin S64x64.rank)
  reducesTo_S64x64_S_d0_1 : S64x64.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S64x64 .f32) (main_arg5 : FVec F S64x64 .f32) (main_arg6 : FVec F S4096x32 .f32) (main_arg7 : FVec F S4096 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S4096x32 .f32 := Host.absf main_arg6
  let main_cst_10 : FVec F S_ .f32 := constant S_ .f32 0x7F800000#32
  let main_v30 : FVec F S4096x32 .f32 := broadcastInDim S4096x32 ![] bcast_S_S4096x32 main_cst_10
  let main_v31 : IVec S4096x32 1 := cmpf .olt main_v29 main_v30
  let main_c_11 : IVec S_ 1 := constantI S_ 1 1#1
  let main_v32 : IVec S_ 1 := (fun x v => Host.reduce IntOp.andi x v reducesTo_S4096x32_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x256 .f32) (main_arg2 : FVec F S65536x32 .f32) (main_arg3 : FVec F S64x256 .f32) (main_arg4 : FVec F S64x64 .f32) (main_arg5 : FVec F S64x64 .f32) (main_arg6 : FVec F S4096x32 .f32) (main_arg7 : FVec F S4096 .f32) (main_arg8 : IVec S65536 32) (main_arg9 : IVec S65536 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S65536x32 .f32 := Host.absf main_arg2
  let main_cst_2 : FVec F S_ .f32 := constant S_ .f32 0x7F800000#32
  let main_v10 : FVec F S65536x32 .f32 := broadcastInDim S65536x32 ![] bcast_S_S65536x32 main_cst_2
  let main_v11 : IVec S65536x32 1 := cmpf .olt main_v9 main_v10
  let main_c_3 : IVec S_ 1 := constantI S_ 1 1#1
  let main_v12 : IVec S_ 1 := (fun x v => Host.reduce IntOp.andi x v reducesTo_S65536x32_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_v13 main_v16
-- ==== Kernel.lean ====
abbrev S8192x256 : Shape := ⟨2, ![8192, 256]⟩
abbrev S65536x32 : Shape := ⟨2, ![65536, 32]⟩
abbrev S64x256 : Shape := ⟨2, ![64, 256]⟩
abbrev S64x64 : Shape := ⟨2, ![64, 64]⟩
abbrev S4096x32 : Shape := ⟨2, ![4096, 32]⟩
abbrev S4096 : Shape := ⟨1, ![4096]⟩
abbrev S65536 : Shape := ⟨1, ![65536]⟩
abbrev S256x64 : Shape := ⟨2, ![256, 64]⟩
abbrev S8192x64 : Shape := ⟨2, ![8192, 64]⟩
abbrev S1024x256 : Shape := ⟨2, ![1024, 256]⟩
abbrev S1024x64 : Shape := ⟨2, ![1024, 64]⟩
abbrev S32x4096 : Shape := ⟨2, ![32, 4096]⟩
abbrev S1x4096 : Shape := ⟨2, ![1, 4096]⟩
abbrev S4096x1 : Shape := ⟨2, ![4096, 1]⟩
abbrev S64 : Shape := ⟨1, ![64]⟩
abbrev S1x64 : Shape := ⟨2, ![1, 64]⟩
abbrev S_ : Shape := ⟨0, ![]⟩
abbrev S4096x64 : Shape := ⟨2, ![4096, 64]⟩
abbrev S65536x64 : Shape := ⟨2, ![65536, 64]⟩
abbrev S512x32 : Shape := ⟨2, ![512, 32]⟩
abbrev S512x64 : Shape := ⟨2, ![512, 64]⟩
abbrev S512x4096 : Shape := ⟨2, ![512, 4096]⟩
abbrev S65536x1 : Shape := ⟨2, ![65536, 1]⟩
abbrev S8192 : Shape := ⟨1, ![8192]⟩
abbrev S8192x1 : Shape := ⟨2, ![8192, 1]⟩
abbrev S2048x64 : Shape := ⟨2, ![2048, 64]⟩

abbrev nBuf : Space → Nat
  | .hbm => 84
  | .vmem => 24
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S65536x32, .f32⟩
  | .hbm, ⟨3, _⟩ => ⟨S64x256, .f32⟩
  | .hbm, ⟨4, _⟩ => ⟨S64x64, .f32⟩
  | .hbm, ⟨5, _⟩ => ⟨S64x64, .f32⟩
  | .hbm, ⟨6, _⟩ => ⟨S4096x32, .f32⟩
  | .hbm, ⟨7, _⟩ => ⟨S4096, .f32⟩
  | .hbm, ⟨8, _⟩ => ⟨S65536, .i32⟩
  | .hbm, ⟨9, _⟩ => ⟨S65536, .i32⟩
  | .hbm, ⟨10, _⟩ => ⟨S8192x256, .bf16⟩
  | .hbm, ⟨11, _⟩ => ⟨S8192x256, .bf16⟩
  | .hbm, ⟨12, _⟩ => ⟨S256x64, .f32⟩
  | .hbm, ⟨13, _⟩ => ⟨S256x64, .bf16⟩
  | .hbm, ⟨14, _⟩ => ⟨S8192x64, .f32⟩
  | .hbm, ⟨15, _⟩ => ⟨S8192x64, .f32⟩
  | .hbm, ⟨16, _⟩ => ⟨S65536x32, .bf16⟩
  | .hbm, ⟨17, _⟩ => ⟨S32x4096, .f32⟩
  | .hbm, ⟨18, _⟩ => ⟨S32x4096, .bf16⟩
  | .hbm, ⟨19, _⟩ => ⟨S1x4096, .f32⟩
  | .hbm, ⟨20, _⟩ => ⟨S4096, .i32⟩
  | .hbm, ⟨21, _⟩ => ⟨S4096x1, .i32⟩
  | .hbm, ⟨22, _⟩ => ⟨S64, .i32⟩
  | .hbm, ⟨23, _⟩ => ⟨S1x64, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096x1, .i32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i1⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S_, .i32⟩
  | .hbm, ⟨39, _⟩ => ⟨S_, .i1⟩
  | .hbm, ⟨40, _⟩ => ⟨S4096x1, .i1⟩
  | .hbm, ⟨41, _⟩ => ⟨S4096x1, .i1⟩
  | .hbm, ⟨42, _⟩ => ⟨S4096x1, .i1⟩
  | .hbm, ⟨43, _⟩ => ⟨S4096x1, .i32⟩
  | .hbm, ⟨44, _⟩ => ⟨S4096x1, .i32⟩
  | .hbm, ⟨45, _⟩ => ⟨S4096x1, .i32⟩
  | .hbm, ⟨46, _⟩ => ⟨S4096x64, .i32⟩
  | .hbm, ⟨47, _⟩ => ⟨S4096x64, .i32⟩
  | .hbm, ⟨48, _⟩ => ⟨S4096x64, .i1⟩
  | .hbm, ⟨49, _⟩ => ⟨S4096x64, .bf16⟩
  | .hbm, ⟨50, _⟩ => ⟨S65536x64, .f32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536x64, .f32⟩
  | .hbm, ⟨60, _⟩ => ⟨S65536x64, .f32⟩
  | .hbm, ⟨61, _⟩ => ⟨S_, .f32⟩
  | .hbm, ⟨62, _⟩ => ⟨S8192x64, .f32⟩
  | .hbm, ⟨63, _⟩ => ⟨S65536x1, .i32⟩
  | .hbm, ⟨64, _⟩ => ⟨S8192x64, .f32⟩
  | .hbm, ⟨65, _⟩ => ⟨S_, .f32⟩
  | .hbm, ⟨66, _⟩ => ⟨S65536, .f32⟩
  | .hbm, ⟨67, _⟩ => ⟨S_, .f32⟩
  | .hbm, ⟨68, _⟩ => ⟨S8192, .f32⟩
  | .hbm, ⟨69, _⟩ => ⟨S65536x1, .i32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1, .f32⟩
  | .hbm, ⟨75, _⟩ => ⟨S8192x64, .f32⟩
  | .hbm, ⟨76, _⟩ => ⟨S8192x64, .f32⟩
  | .hbm, ⟨77, _⟩ => ⟨S8192x64, .bf16⟩
  | .hbm, ⟨78, _⟩ => ⟨S8192x64, .bf16⟩
  | .hbm, ⟨79, _⟩ => ⟨S64x64, .f32⟩
  | .hbm, ⟨80, _⟩ => ⟨S64x64, .bf16⟩
  | .hbm, ⟨81, _⟩ => ⟨S64x64, .f32⟩
  | .hbm, ⟨82, _⟩ => ⟨S64x64, .bf16⟩
  | .hbm, ⟨83, _⟩ => ⟨S8192x64, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x64, .bf16⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S512x32, .bf16⟩
  | .local _ .vmem, ⟨10, _⟩ => ⟨S512x32, .bf16⟩
  | .local _ .vmem, ⟨11, _⟩ => ⟨S32x4096, .bf16⟩
  | .local _ .vmem, ⟨12, _⟩ => ⟨S1x4096, .f32⟩
  | .local _ .vmem, ⟨13, _⟩ => ⟨S4096x64, .bf16⟩
  | .local _ .vmem, ⟨14, _⟩ => ⟨S512x64, .f32⟩
  | .local _ .vmem, ⟨15, _⟩ => ⟨S512x64, .f32⟩
  | .local _ .vmem, ⟨16, _⟩ => ⟨S2048x64, .bf16⟩
  | .local _ .vmem, ⟨17, _⟩ => ⟨S2048x64, .bf16⟩
  | .local _ .vmem, ⟨18, _⟩ => ⟨S2048x64, .bf16⟩
  | .local _ .vmem, ⟨19, _⟩ => ⟨S2048x64, .bf16⟩
  | .local _ .vmem, ⟨20, _⟩ => ⟨S64x64, .bf16⟩
  | .local _ .vmem, ⟨21, _⟩ => ⟨S64x64, .bf16⟩
  | .local _ .vmem, ⟨22, _⟩ => ⟨S2048x64, .f32⟩
  | .local _ .vmem, ⟨23, _⟩ => ⟨S2048x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_0 : Ref sig .tc := ⟨.hbm, 51, rfl⟩
abbrev main_v19 : Ref sig .tc := ⟨.hbm, 52, rfl⟩
abbrev main_v20 : Ref sig .tc := ⟨.hbm, 53, rfl⟩
abbrev main_c_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_2 : Ref sig .tc := ⟨.hbm, 65, rfl⟩
abbrev main_v30 : Ref sig .tc := ⟨.hbm, 66, rfl⟩
abbrev main_cst_3 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  transposes_S64x256_S256x64_1_0 : S64x256.Transposes [1, 0] S256x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x64_S1024x64_0_0 : ∀ a, (![0, 0] : Fin 2 → Nat) a + S1024x64.size a ≤ S1024x64.size a
  h_S1024x64 : 0 < S1024x64.numel
  transposes_S4096x32_S32x4096_1_0 : S4096x32.Transposes [1, 0] S32x4096
  shapeCasts_S4096_S1x4096 : S4096.ShapeCasts S1x4096
  shapeCasts_S4096_S4096x1 : S4096.ShapeCasts S4096x1
  shapeCasts_S64_S1x64 : S64.ShapeCasts S1x64
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S512x64_S512x64_0_0 : ∀ a, (![0, 0] : Fin 2 → Nat) a + S512x64.size a ≤ S512x64.size a
  h_S512x64 : 0 < S512x64.numel
  bcast_S_S65536 : S_.BroadcastsInDim S65536 (![] : Fin 0 → Fin S65536.rank)
  bcast_S65536_S65536x1_0 : S65536.BroadcastsInDim S65536x1 (![0] : Fin 1 → Fin S65536x1.rank)
  bcast_S_S8192x64 : S_.BroadcastsInDim S8192x64 (![] : Fin 0 → Fin S8192x64.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S64x64_S64x64_1_0 : S64x64.Transposes [1, 0] S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S1024x256_S256x64_S1024x64_1_0_0_1_n_n_wf : DotDims.WF S1024x256 S256x64 S1024x64 [1] [0] [0] [1] [] []
  dot_S512x32_S32x4096_S512x4096_1_0_0_1_n_n_wf : DotDims.WF S512x32 S32x4096 S512x4096 [1] [0] [0] [1] [] []
  dot_S512x4096_S4096x64_S512x64_1_0_0_1_n_n_wf : DotDims.WF S512x4096 S4096x64 S512x64 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1
  scatter_S8192_S65536x1_S65536_n_0_0_1_wf : ScatterDims.WF S8192 S65536x1 S65536 [] [0] [0] 1
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x32.size a ≤ S65536x32.size a
  hwx1_0 : ∀ i : grid1.Coords, EltTy.bits .bf16 = 32 ∨ (Rect.block (s := S65536x32) S512x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .bf16 = 32 ∨ (Rect.block (s := S32x4096) S32x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S4096x64.size a
  hwx1_3 : ∀ i : grid1.Coords, EltTy.bits .bf16 = 32 ∨ (Rect.block (s := S4096x64) S4096x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S65536x64.size a
  hwx1_4 : ∀ i : grid1.Coords, EltTy.bits .f32 = 32 ∨ (Rect.block (s := S65536x64) S512x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .bf16 = 32 ∨ (Rect.block (s := S8192x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .bf16 = 32 ∨ (Rect.block (s := S8192x64) S2048x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S8192x64.size a
  hwx2_4 : ∀ i : grid2.Coords, EltTy.bits .f32 = 32 ∨ (Rect.block (s := S8192x64) S2048x64.size (cc2_transform_4 i) (hinb2_4 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2048x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x256 : Shape := ⟨2, ![8192, 256]⟩
abbrev S65536x32 : Shape := ⟨2, ![65536, 32]⟩
abbrev S64x256 : Shape := ⟨2, ![64, 256]⟩
abbrev S64x64 : Shape := ⟨2, ![64, 64]⟩
abbrev S4096x32 : Shape := ⟨2, ![4096, 32]⟩
abbrev S4096 : Shape := ⟨1, ![4096]⟩
abbrev S65536 : Shape := ⟨1, ![65536]⟩
abbrev S256x64 : Shape := ⟨2, ![256, 64]⟩
abbrev S8192x64 : Shape := ⟨2, ![8192, 64]⟩
abbrev S_ : Shape := ⟨0, ![]⟩
abbrev S32x4096 : Shape := ⟨2, ![32, 4096]⟩
abbrev S65536x4096 : Shape := ⟨2, ![65536, 4096]⟩
abbrev S1x4096 : Shape := ⟨2, ![1, 4096]⟩
abbrev S65536x64x64 : Shape := ⟨3, ![65536, 64, 64]⟩
abbrev S65536x64 : Shape := ⟨2, ![65536, 64]⟩
abbrev S65536x1 : Shape := ⟨2, ![65536, 1]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S65536x32, .f32⟩
  | .hbm, ⟨3, _⟩ => ⟨S64x256, .f32⟩
  | .hbm, ⟨4, _⟩ => ⟨S64x64, .f32⟩
  | .hbm, ⟨5, _⟩ => ⟨S64x64, .f32⟩
  | .hbm, ⟨6, _⟩ => ⟨S4096x32, .f32⟩
  | .hbm, ⟨7, _⟩ => ⟨S4096, .f32⟩
  | .hbm, ⟨8, _⟩ => ⟨S65536, .i32⟩
  | .hbm, ⟨9, _⟩ => ⟨S65536, .i32⟩
  | .hbm, ⟨10, _⟩ => ⟨S256x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S256x64, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S32x4096, .f32⟩
  | .hbm, ⟨21, _⟩ => ⟨S65536x4096, .f32⟩
  | .hbm, ⟨22, _⟩ => ⟨S1x4096, .f32⟩
  | .hbm, ⟨23, _⟩ => ⟨S65536x4096, .f32⟩
  | .hbm, ⟨24, _⟩ => ⟨S65536x4096, .f32⟩
  | .hbm, ⟨25, _⟩ => ⟨S_, .f32⟩
  | .hbm, ⟨26, _⟩ => ⟨S65536x4096, .f32⟩
  | .hbm, ⟨27, _⟩ => ⟨S65536x4096, .f32⟩
  | .hbm, ⟨28, _⟩ => ⟨S65536x64x64, .f32⟩
  | .hbm, ⟨29, _⟩ => ⟨S_, .f32⟩
  | .hbm, ⟨30, _⟩ => ⟨S65536x64, .f32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x64, .f32⟩
  | .hbm, ⟨40, _⟩ => ⟨S65536x64, .f32⟩
  | .hbm, ⟨41, _⟩ => ⟨S_, .f32⟩
  | .hbm, ⟨42, _⟩ => ⟨S8192x64, .f32⟩
  | .hbm, ⟨43, _⟩ => ⟨S65536x1, .i32⟩
  | .hbm, ⟨44, _⟩ => ⟨S8192x64, .f32⟩
  | .hbm, ⟨45, _⟩ => ⟨S_, .f32⟩
  | .hbm, ⟨46, _⟩ => ⟨S65536, .f32⟩
  | .hbm, ⟨47, _⟩ => ⟨S_, .f32⟩
  | .hbm, ⟨48, _⟩ => ⟨S8192, .f32⟩
  | .hbm, ⟨49, _⟩ => ⟨S65536x1, .i32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1, .f32⟩
  | .hbm, ⟨55, _⟩ => ⟨S8192x64, .f32⟩
  | .hbm, ⟨56, _⟩ => ⟨S8192x64, .f32⟩
  | .hbm, ⟨57, _⟩ => ⟨S64x64, .f32⟩
  | .hbm, ⟨58, _⟩ => ⟨S8192x64, .f32⟩
  | .hbm, ⟨59, _⟩ => ⟨S_, .f32⟩
  | .hbm, ⟨60, _⟩ => ⟨S8192x64, .f32⟩
  | .hbm, ⟨61, _⟩ => ⟨S8192x64, .f32⟩
  | .hbm, ⟨62, _⟩ => ⟨S64x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S_, .f32⟩
  | .hbm, ⟨69, _⟩ => ⟨S8192x64, .f32⟩
  | .hbm, ⟨70, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call2_cst : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call3_cst : Ref sig .tc := ⟨.hbm, 59, rfl⟩
abbrev main_call3_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call4_cst : Ref sig .tc := ⟨.hbm, 64, rfl⟩
abbrev main_call4_v0 : Ref sig .tc := ⟨.hbm, 65, rfl⟩
abbrev main_v39 : Ref sig .tc := ⟨.hbm, 66, rfl⟩
abbrev main_v40 : Ref sig .tc := ⟨.hbm, 67, rfl⟩
abbrev main_call5_cst : Ref sig .tc := ⟨.hbm, 68, rfl⟩
abbrev main_call5_v0 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  transposes_S64x256_S256x64_1_0 : S64x256.Transposes [1, 0] S256x64
  bcast_S_S8192x64 : S_.BroadcastsInDim S8192x64 (![] : Fin 0 → Fin S8192x64.rank)
  transposes_S4096x32_S32x4096_1_0 : S4096x32.Transposes [1, 0] S32x4096
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  bcast_S_S65536x4096 : S_.BroadcastsInDim S65536x4096 (![] : Fin 0 → Fin S65536x4096.rank)
  shapeCasts_S65536x4096_S65536x64x64 : S65536x4096.ShapeCasts S65536x64x64
  reducesTo_S65536x64x64_S65536x64_d1 : S65536x64x64.ReducesTo [1] S65536x64
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S64x64_S64x64_1_0 : S64x64.Transposes [1, 0] S64x64
  dot_S8192x256_S256x64_S8192x64_1_0_0_1_n_n_wf : DotDims.WF S8192x256 S256x64 S8192x64 [1] [0] [0] [1] [] []
  dot_S65536x32_S32x4096_S65536x4096_1_0_0_1_n_n_wf : DotDims.WF S65536x32 S32x4096 S65536x4096 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1
  scatter_S8192_S65536x1_S65536_n_0_0_1_wf : ScatterDims.WF S8192 S65536x1 S65536 [] [0] [0] 1
  dot_S8192x64_S64x64_S8192x64_1_0_0_1_n_n_wf : DotDims.WF S8192x64 S64x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S65536x32_S32x4096_S65536x4096_1_0_0_1_n_n : DotDims S65536x32 S32x4096 S65536x4096 where
  lhsContracting := [1]
  rhsContracting := [0]
  lhsNonContracting := [0]
  rhsNonContracting := [1]
  lhsBatch := []
  rhsBatch := []
  wf := dot_S65536x32_S32x4096_S65536x4096_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.Chain.lean ====
/-
  The host operations between the kernels — gather the source rows, multiply by the edge weights, scatter-add into the
  destination rows, divide by the clipped in-degree — are the same operations in both programs. They are named here
  once per program, over that program's own dimension records, and shown to be one function; nothing ever opens them.
-/
import proofs.«134431_j65051574665680_1_alg».proof.Proof.Gen.KernelIdeal
import proofs.«134431_j65051574665680_1_alg».proof.Proof.Gen.ReferenceIdeal
import Idealize.ShloMosaic.PureOps.Ideal

noncomputable section

namespace Cert.Chain

open Idealize.ShloMosaic

section KernelIdeal
open Cert.KernelIdeal Cert.KernelIdeal.Facts₀

/-- The mean of the messages over each node's in-edges: row `src e` of `hn` times row `e` of `s`, added into row
    `dst e`, divided by the larger of the node's in-degree and one (the records are this program's own). -/
def neighK (hn : FVec Ideal S8192x64 .f32) (s : FVec Ideal S65536x64 .f32) (src dst : Vec Ideal S65536 .i32) :
    FVec Ideal S8192x64 .f32 :=
  Host.divf
    (Host.scatterAdd scatter_S8192x64_S65536x1_S65536x64_1_0_0_1
      (broadcastInDim S8192x64 ![] bcast_S_S8192x64 (constant (F := Ideal) S_ .f32 0x00000000#32))
      (broadcastInDim S65536x1 ![0] bcast_S65536_S65536x1_0 dst)
      (mulf (Host.gather gather_S8192x64_S65536x1_S65536x64_1_0_n_n_0_1_164 hn
        (broadcastInDim S65536x1 ![0] bcast_S65536_S65536x1_0
          (select (cmpi .slt src (broadcastInDim S65536 ![] bcast_S_S65536 (constantI S_ 32 0#32)))
            (addi src (broadcastInDim S65536 ![] bcast_S_S65536 (constantI S_ 32 8192#32))) src))) s))
    (broadcastInDim S8192x64 ![0, 1] bcast_S8192x1_S8192x64_0_1 (broadcastInDim S8192x1 ![0] bcast_S8192_S8192x1_0
      (maximumf (Host.scatterAdd scatter_S8192_S65536x1_S65536_n_0_0_1
          (broadcastInDim S8192 ![] bcast_S_S8192 (constant (F := Ideal) S_ .f32 0x00000000#32))
          (broadcastInDim S65536x1 ![0] bcast_S65536_S65536x1_0 dst)
          (broadcastInDim S65536 ![] bcast_S_S65536 (constant (F := Ideal) S_ .f32 0x3F800000#32)))
        (broadcastInDim S8192 ![] bcast_S_S8192 (constant (F := Ideal) S_ .f32 0x3F800000#32)))))

end KernelIdeal

section ReferenceIdeal
open Cert.ReferenceIdeal Cert.ReferenceIdeal.Facts₀

/-- The mean of the messages over each node's in-edges: row `src e` of `hn` times row `e` of `s`, added into row
    `dst e`, divided by the larger of the node's in-degree and one (the records are this program's own). -/
def neighR (hn : FVec Ideal S8192x64 .f32) (s : FVec Ideal S65536x64 .f32) (src dst : Vec Ideal S65536 .i32) :
    FVec Ideal S8192x64 .f32 :=
  Host.divf
    (Host.scatterAdd scatter_S8192x64_S65536x1_S65536x64_1_0_0_1
      (broadcastInDim S8192x64 ![] bcast_S_S8192x64 (constant (F := Ideal) S_ .f32 0x00000000#32))
      (broadcastInDim S65536x1 ![0] bcast_S65536_S65536x1_0 dst)
      (mulf (Host.gather gather_S8192x64_S65536x1_S65536x64_1_0_n_n_0_1_164 hn
        (broadcastInDim S65536x1 ![0] bcast_S65536_S65536x1_0
          (select (cmpi .slt src (broadcastInDim S65536 ![] bcast_S_S65536 (constantI S_ 32 0#32)))
            (addi src (broadcastInDim S65536 ![] bcast_S_S65536 (constantI S_ 32 8192#32))) src))) s))
    (broadcastInDim S8192x64 ![0, 1] bcast_S8192x1_S8192x64_0_1 (broadcastInDim S8192x1 ![0] bcast_S8192_S8192x1_0
      (maximumf (Host.scatterAdd scatter_S8192_S65536x1_S65536_n_0_0_1
          (broadcastInDim S8192 ![] bcast_S_S8192 (constant (F := Ideal) S_ .f32 0x00000000#32))
          (broadcastInDim S65536x1 ![0] bcast_S65536_S65536x1_0 dst)
          (broadcastInDim S65536 ![] bcast_S_S65536 (constant (F := Ideal) S_ .f32 0x3F800000#32)))
        (broadcastInDim S8192 ![] bcast_S_S8192 (constant (F := Ideal) S_ .f32 0x3F800000#32)))))

end ReferenceIdeal

/-- The two spellings are one function: the records agree field by field. -/
theorem neighK_eq_neighR : neighK = neighR := rfl

/-- The transposed weights are spelled alike in both programs. -/
theorem tr_preagg (a : FVec Ideal Cert.KernelIdeal.S64x256 .f32) :
    transpose Cert.KernelIdeal.S256x64 [1, 0] a Cert.KernelIdeal.Facts₀.transposes_S64x256_S256x64_1_0
      = transpose Cert.ReferenceIdeal.S256x64 [1, 0] a Cert.ReferenceIdeal.Facts₀.transposes_S64x256_S256x64_1_0 := rfl
theorem tr_edge (a : FVec Ideal Cert.KernelIdeal.S4096x32 .f32) :
    transpose Cert.KernelIdeal.S32x4096 [1, 0] a Cert.KernelIdeal.Facts₀.transposes_S4096x32_S32x4096_1_0
      = transpose Cert.ReferenceIdeal.S32x4096 [1, 0] a Cert.ReferenceIdeal.Facts₀.transposes_S4096x32_S32x4096_1_0 := rfl
theorem tr_sq (a : FVec Ideal Cert.KernelIdeal.S64x64 .f32) :
    transpose Cert.KernelIdeal.S64x64 [1, 0] a Cert.KernelIdeal.Facts₀.transposes_S64x64_S64x64_1_0
      = transpose Cert.ReferenceIdeal.S64x64 [1, 0] a Cert.ReferenceIdeal.Facts₀.transposes_S64x64_S64x64_1_0 := rfl

end Cert.Chain

end
-- ==== Proof.Spec.lean ====
/-
  What each stage of the layer computes, entry by entry, on the extended reals.

  * `linRelu x w`      : a linear layer without bias followed by relu, `max (∑ k, x (p,k) · w (k,q)) 0`.
  * `edgeSel ef w b sel`: the edge transform contracted with a selector matrix,
                          `∑ k, max (∑ d, ef (e,d) · w (d,k) + b (0,k)) 0 · sel (k,j)`.
  * `edgeFold ef w b`   : the same edge transform viewed as `64 × 64` per edge and summed over its first axis,
                          `∑ a, max (∑ d, ef (e,d) · w (d, 64a + j) + b (64a + j)) 0`.
  * `combine hs ng ws wn`: `max (linRelu hs ws + linRelu ng wn) 0`.

  The selector that is `1` exactly where `k mod 64 = j` turns the contraction over `k < 4096` into the sum over the
  `64` positions `k = 64 a + j`: every other term is a product with `0`, which is `0` for every extended real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A bias-free linear layer followed by relu, at entry `(p, q)`. -/
def linReluAt {R K C : ℕ} (x : ((⟨2, ![R, K]⟩ : Shape).Idx → EReal)) (w : ((⟨2, ![K, C]⟩ : Shape).Idx → EReal))
    (p : Fin R) (q : Fin C) : EReal :=
  max (∑ k : Fin K, x (ix2 p k) * w (ix2 k q)) 0

/-- The same as a whole array. -/
def linRelu {R K C : ℕ} (x : ((⟨2, ![R, K]⟩ : Shape).Idx → EReal)) (w : ((⟨2, ![K, C]⟩ : Shape).Idx → EReal)) :
    ((⟨2, ![R, C]⟩ : Shape).Idx → EReal) :=
  fun i => linReluAt x w (i 0) (i 1)

/-- The edge transform's hidden activation at edge `e`, hidden position `k`. -/
def edgeActAt {E D H : ℕ} (ef : ((⟨2, ![E, D]⟩ : Shape).Idx → EReal)) (w : ((⟨2, ![D, H]⟩ : Shape).Idx → EReal))
    (bias : Fin H → EReal) (e : Fin E) (k : Fin H) : EReal :=
  max ((∑ d : Fin D, ef (ix2 e d) * w (ix2 d k)) + bias k) 0

/-- The activation contracted with a selector matrix, at entry `(e, j)`. -/
def edgeSelAt {E D H J : ℕ} (ef : ((⟨2, ![E, D]⟩ : Shape).Idx → EReal)) (w : ((⟨2, ![D, H]⟩ : Shape).Idx → EReal))
    (b : ((⟨2, ![1, H]⟩ : Shape).Idx → EReal)) (sel : ((⟨2, ![H, J]⟩ : Shape).Idx → EReal)) (e : Fin E) (j : Fin J) : EReal :=
  ∑ k : Fin H, edgeActAt ef w (fun k => b (ix2 0 k)) e k * sel (ix2 k j)

/-- The same as a whole array. -/
def edgeSel {E D H J : ℕ} (ef : ((⟨2, ![E, D]⟩ : Shape).Idx → EReal)) (w : ((⟨2, ![D, H]⟩ : Shape).Idx → EReal))
    (b : ((⟨2, ![1, H]⟩ : Shape).Idx → EReal)) (sel : ((⟨2, ![H, J]⟩ : Shape).Idx → EReal)) :
    ((⟨2, ![E, J]⟩ : Shape).Idx → EReal) :=
  fun i => edgeSelAt ef w b sel (i 0) (i 1)

/-- Position `64 a + j` of the hidden axis. -/
def hid (a j : Fin 64) : Fin 4096 := ⟨a.val * 64 + j.val, by have := a.isLt; have := j.isLt; omega⟩

/-- The activation summed over the first axis of its `64 × 64` view, at entry `(e, j)`. -/
def edgeFoldAt {E D : ℕ} (ef : ((⟨2, ![E, D]⟩ : Shape).Idx → EReal)) (w : ((⟨2, ![D, 4096]⟩ : Shape).Idx → EReal))
    (b : ((⟨1, ![4096]⟩ : Shape).Idx → EReal)) (e : Fin E) (j : Fin 64) : EReal :=
  ∑ a : Fin 64, edgeActAt ef w (fun k => b (ix1 k)) e (hid a j)

/-- The same as a whole array. -/
def edgeFold {E D : ℕ} (ef : ((⟨2, ![E, D]⟩ : Shape).Idx → EReal)) (w : ((⟨2, ![D, 4096]⟩ : Shape).Idx → EReal))
    (b : ((⟨1, ![4096]⟩ : Shape).Idx → EReal)) : ((⟨2, ![E, 64]⟩ : Shape).Idx → EReal) :=
  fun i => edgeFoldAt ef w b (i 0) (i 1)

/-- The final stage: both linear layers with relu, added, relu again. -/
def combine {R K C : ℕ} (hs : ((⟨2, ![R, K]⟩ : Shape).Idx → EReal)) (ng : ((⟨2, ![R, K]⟩ : Shape).Idx → EReal))
    (ws : ((⟨2, ![K, C]⟩ : Shape).Idx → EReal)) (wn : ((⟨2, ![K, C]⟩ : Shape).Idx → EReal)) : ((⟨2, ![R, C]⟩ : Shape).Idx → EReal) :=
  fun i => max (linReluAt hs ws (i 0) (i 1) + linReluAt ng wn (i 0) (i 1)) 0

end Cert.Spec

end
-- ==== Proof.Final.lean ====
/-
  The whole layer as one function of its ten arguments: the two pre-aggregation layers, the edge transform summed over
  the first axis of its 64 × 64 view, the mean of the messages over in-edges, and the combining layer.
-/
import proofs.«134431_j65051574665680_1_alg».proof.Proof.Chain
import proofs.«134431_j65051574665680_1_alg».proof.Proof.Spec

noncomputable section

namespace Cert.Final

open Idealize.ShloMosaic

section KernelIdeal
open Cert.KernelIdeal Cert.KernelIdeal.Facts₀

/-- The layer's result as one function of the ten arguments (the transposes and the host chain in this program's spelling). -/
def zK (a0 a1 : FVec Ideal S8192x256 .f32) (a2 : FVec Ideal S65536x32 .f32) (a3 : FVec Ideal S64x256 .f32)
    (a4 a5 : FVec Ideal S64x64 .f32) (a6 : FVec Ideal S4096x32 .f32) (a7 : FVec Ideal S4096 .f32) (a8 a9 : Vec Ideal S65536 .i32) :
    FVec Ideal S8192x64 .f32 :=
  Cert.Spec.combine
    (Cert.Spec.linRelu a1 (transpose S256x64 [1, 0] a3 transposes_S64x256_S256x64_1_0))
    (Cert.Chain.neighK
      (Cert.Spec.linRelu a0 (transpose S256x64 [1, 0] a3 transposes_S64x256_S256x64_1_0))
      (Cert.Spec.edgeFold a2 (transpose S32x4096 [1, 0] a6 transposes_S4096x32_S32x4096_1_0) a7) a8 a9)
    (transpose S64x64 [1, 0] a4 transposes_S64x64_S64x64_1_0)
    (transpose S64x64 [1, 0] a5 transposes_S64x64_S64x64_1_0)

end KernelIdeal

section ReferenceIdeal
open Cert.ReferenceIdeal Cert.ReferenceIdeal.Facts₀

/-- The layer's result as one function of the ten arguments (the transposes and the host chain in this program's spelling). -/
def zR (a0 a1 : FVec Ideal S8192x256 .f32) (a2 : FVec Ideal S65536x32 .f32) (a3 : FVec Ideal S64x256 .f32)
    (a4 a5 : FVec Ideal S64x64 .f32) (a6 : FVec Ideal S4096x32 .f32) (a7 : FVec Ideal S4096 .f32) (a8 a9 : Vec Ideal S65536 .i32) :
    FVec Ideal S8192x64 .f32 :=
  Cert.Spec.combine
    (Cert.Spec.linRelu a1 (transpose S256x64 [1, 0] a3 transposes_S64x256_S256x64_1_0))
    (Cert.Chain.neighR
      (Cert.Spec.linRelu a0 (transpose S256x64 [1, 0] a3 transposes_S64x256_S256x64_1_0))
      (Cert.Spec.edgeFold a2 (transpose S32x4096 [1, 0] a6 transposes_S4096x32_S32x4096_1_0) a7) a8 a9)
    (transpose S64x64 [1, 0] a4 transposes_S64x64_S64x64_1_0)
    (transpose S64x64 [1, 0] a5 transposes_S64x64_S64x64_1_0)

end ReferenceIdeal

/-- One function, spelled over either program's records. -/
theorem zK_eq_zR : zK = zR := rfl

end Cert.Final

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.Region0.lean ====
import proofs.«134431_j65051574665680_1_alg».proof.Proof.Gen.KernelIdeal.Frame
import proofs.«134431_j65051574665680_1_alg».proof.Proof.Spec
import proofs.«134431_j65051574665680_1_alg».proof.Proof.LibPlainDot
import Idealize.ShloMosaic.Lib.Pipeline.Value

set_option maxRecDepth 16384

noncomputable section

namespace Cert.KernelIdeal.Region0
open Idealize.ShloMosaic Idealize.ShloMosaic.TcCoe Idealize.ShloMosaic.ValueIdx
open Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

/-- The zero offsets, as a constant function. -/
theorem hz : (![0, 0] : Fin 2 → Nat) = fun _ => 0 := funext fun a => by fin_cases a <;> rfl

/-- The first payload at an entry: the block product with relu. -/
theorem pay2_apply (w : Vec Ideal S256x64 .bf16) (x : Vec Ideal S1024x256 .bf16) (p : Fin 1024) (q : Fin 64) :
    k0_pay2 (F := Ideal) w x (ix2 p q) = max (∑ k : Fin 256, x (ix2 p k) * w (ix2 k q)) 0 := by
  unfold k0_pay2 k0_pay1
  simp only [shapeCast_self]
  exact congrArg₂ max
    (Cert.PlainDot.matmul_zero_apply (φ₁ := .bf16) (φ₂ := .bf16) dot_S1024x256_S256x64_S1024x64_1_0_0_1_n_n rfl rfl rfl rfl rfl rfl none x w p q)
    Ideal.ofBits_zero_f32

/-- The second payload at an entry: the same. -/
theorem pay3_apply (w : Vec Ideal S256x64 .bf16) (x : Vec Ideal S1024x256 .bf16) (p : Fin 1024) (q : Fin 64) :
    k0_pay3 (F := Ideal) w x (ix2 p q) = max (∑ k : Fin 256, x (ix2 p k) * w (ix2 k q)) 0 := by
  unfold k0_pay3 k0_pay1
  simp only [shapeCast_self]
  exact congrArg₂ max
    (Cert.PlainDot.matmul_zero_apply (φ₁ := .bf16) (φ₂ := .bf16) dot_S1024x256_S256x64_S1024x64_1_0_0_1_n_n rfl rfl rfl rfl rfl rfl none x w p q)
    Ideal.ofBits_zero_f32

/-- The printed index maps over the grid: the row-blocked windows sit at block row `t`, the weight window at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of what a point computes: when the loaded feature block's row `p` is row `r` of the feature array and the loaded
    weight block is the weight array, the payload's entry `(p, q)` is the layer's entry `(r, q)`. -/
theorem pay2_point (A : S8192x256.Idx → EReal) (W : S256x64.Idx → EReal) (x : Vec Ideal S1024x256 .bf16) (w : Vec Ideal S256x64 .bf16)
    (r : Fin 8192) (p : Fin 1024) (q : Fin 64)
    (hx : ∀ k : Fin 256, x (ix2 p k) = A (ix2 r k)) (hw : ∀ k : Fin 256, w (ix2 k q) = W (ix2 k q)) :
    k0_pay2 (F := Ideal) w x (ix2 p q) = Cert.Spec.linRelu A W (ix2 r q) := by
  refine (pay2_apply w x p q).trans ?_
  show max (∑ k : Fin 256, x (ix2 p k) * w (ix2 k q)) 0 = max (∑ k : Fin 256, A (ix2 r k) * W (ix2 k q)) 0
  refine congrArg (fun s => max s 0) (Finset.sum_congr rfl fun k _ => ?_)
  rw [hx k, hw k]

/-- The same for the second payload. -/
theorem pay3_point (A : S8192x256.Idx → EReal) (W : S256x64.Idx → EReal) (x : Vec Ideal S1024x256 .bf16) (w : Vec Ideal S256x64 .bf16)
    (r : Fin 8192) (p : Fin 1024) (q : Fin 64)
    (hx : ∀ k : Fin 256, x (ix2 p k) = A (ix2 r k)) (hw : ∀ k : Fin 256, w (ix2 k q) = W (ix2 k q)) :
    k0_pay3 (F := Ideal) w x (ix2 p q) = Cert.Spec.linRelu A W (ix2 r q) := by
  refine (pay3_apply w x p q).trans ?_
  show max (∑ k : Fin 256, x (ix2 p k) * w (ix2 k q)) 0 = max (∑ k : Fin 256, A (ix2 r k) * W (ix2 k q)) 0
  refine congrArg (fun s => max s 0) (Finset.sum_congr rfl fun k _ => ?_)
  rw [hx k, hw k]

/-- What point `t` writes back to the first output is block `t` of the layer on the whole arrays. -/
theorem flushed3_eq (c : Dev nD) (t : Fin cfg0.N) :
    (dat0 (F := Ideal) V c).flushed 3 t = ((cfg0.win 3).blk t).view.read (Elt Ideal) (Cert.Spec.linRelu (V c main_v0) (V c main_v3)) := by
  show (cfg0.win 3).cut (grid0.coords t) ((dat0 V c).after 3 t) = _
  rw [after0_3]
  unfold out0_3
  rw [View.canon_unit_zero hz]
  simp only [View.ld_unit_zero (S := S256x64) hz, View.ld_unit_zero (S := S1024x256) hz]
  obtain ⟨e00, e01, e10, e11, e20, e21, e30, e31, e40, e41⟩ := idx_facts t
  have ht : t.val < 8 := N_0 ▸ t.isLt
  funext j
  have hj0 : (j 0).val < 1024 := (j 0).isLt
  have hj1 : (j 1).val < 64 := (j 1).isLt
  have hr : t.val * 1024 + (j 0).val < 8192 := by omega
  have hxj : (win0 3).xinj (grid0.coords t) j = ix2 (⟨(j 0).val, hj0⟩ : Fin 1024) (⟨(j 1).val, hj1⟩ : Fin 64) := by
    funext a
    match a with
    | ⟨0, _⟩ => rfl
    | ⟨1, _⟩ => rfl
  have hemb : ((cfg0.win 3).blk t).view.emb j = ix2 (⟨t.val * 1024 + (j 0).val, hr⟩ : Fin 8192) (⟨(j 1).val, hj1⟩ : Fin 64) := by
    funext a; apply Fin.ext
    match a with
    | ⟨0, _⟩ => show win0_3.index t (0 : Fin 2) * 1024 + 1 * (j 0).val = t.val * 1024 + (j 0).val; omega
    | ⟨1, _⟩ => show win0_3.index t (1 : Fin 2) * 64 + 1 * (j 1).val = (j 1).val; omega
  show k0_pay2 (F := Ideal) (iblk0 V c 2 t) (iblk0 V c 0 t) ((win0 3).xinj (grid0.coords t) j) = Cert.Spec.linRelu (V c main_v0) (V c main_v3) (((cfg0.win 3).blk t).view.emb j)
  rw [hxj, hemb]
  refine pay2_point (V c main_v0) (V c main_v3) (iblk0 V c 0 t) (iblk0 V c 2 t) _ _ _ (fun k => ?_) (fun k => ?_)
  · show V c main_v0 (((cfg0.win 0).blk t).view.emb (ix2 (⟨(j 0).val, hj0⟩ : Fin 1024) k)) = _
    refine congrArg (V c main_v0) ?_
    funext a; apply Fin.ext
    match a with
    | ⟨0, _⟩ => show win0_0.index t (0 : Fin 2) * 1024 + 1 * (j 0).val = t.val * 1024 + (j 0).val; omega
    | ⟨1, _⟩ => show win0_0.index t (1 : Fin 2) * 256 + 1 * k.val = k.val; omega
  · show V c main_v3 (((cfg0.win 2).blk t).view.emb (ix2 k (⟨(j 1).val, hj1⟩ : Fin 64))) = _
    refine congrArg (V c main_v3) ?_
    funext a; apply Fin.ext
    match a with
    | ⟨0, _⟩ => show win0_2.index t (0 : Fin 2) * 256 + 1 * k.val = k.val; omega
    | ⟨1, _⟩ => show win0_2.index t (1 : Fin 2) * 64 + 1 * (j 1).val = (j 1).val; omega

/-- An index of the first output array is in point `t`'s block iff each coordinate is in the block's range on its axis. -/
theorem mem_blk3 (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v4_0).slice (win0_3.rect t)).set ↔ _
  rw [View.set_slice_whole, Rect.mem_set_unit]
  exact Iff.rfl

/-- Every index of the first output array is in the block of the point its row falls to. -/
theorem cover3 (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hlt : (i 0).val / 1024 < grid0.N := by rw [N_0]; omega
  obtain ⟨e00, e01, e10, e11, e20, e21, e30, e31, e40, e41⟩ := idx_facts ⟨(i 0).val / 1024, hlt⟩
  have f0 : win0_3.index ⟨(i 0).val / 1024, hlt⟩ (0 : Fin 2) = (i 0).val / 1024 := e30
  have f1 : win0_3.index ⟨(i 0).val / 1024, hlt⟩ (1 : Fin 2) = 0 := e31
  refine ⟨⟨(i 0).val / 1024, hlt⟩, flush0_3 _, ?_⟩
  rw [mem_blk3]
  intro a
  match a with
  | ⟨0, _⟩ => show win0_3.index ⟨(i 0).val / 1024, hlt⟩ (0 : Fin 2) * 1024 ≤ (i 0).val ∧ (i 0).val < win0_3.index ⟨(i 0).val / 1024, hlt⟩ (0 : Fin 2) * 1024 + 1024; omega
  | ⟨1, _⟩ => show win0_3.index ⟨(i 0).val / 1024, hlt⟩ (1 : Fin 2) * 64 ≤ (i 1).val ∧ (i 1).val < win0_3.index ⟨(i 0).val / 1024, hlt⟩ (1 : Fin 2) * 64 + 64; omega

/-- What point `t` writes back to the second output is block `t` of the layer on the whole arrays. -/
theorem flushed4_eq (c : Dev nD) (t : Fin cfg0.N) :
    (dat0 (F := Ideal) V c).flushed 4 t = ((cfg0.win 4).blk t).view.read (Elt Ideal) (Cert.Spec.linRelu (V c main_v1) (V c main_v3)) := by
  show (cfg0.win 4).cut (grid0.coords t) ((dat0 V c).after 4 t) = _
  rw [after0_4]
  unfold out0_4
  rw [View.canon_unit_zero hz]
  simp only [View.ld_unit_zero (S := S256x64) hz, View.ld_unit_zero (S := S1024x256) hz]
  obtain ⟨e00, e01, e10, e11, e20, e21, e30, e31, e40, e41⟩ := idx_facts t
  have ht : t.val < 8 := N_0 ▸ t.isLt
  funext j
  have hj0 : (j 0).val < 1024 := (j 0).isLt
  have hj1 : (j 1).val < 64 := (j 1).isLt
  have hr : t.val * 1024 + (j 0).val < 8192 := by omega
  have hxj : (win0 4).xinj (grid0.coords t) j = ix2 (⟨(j 0).val, hj0⟩ : Fin 1024) (⟨(j 1).val, hj1⟩ : Fin 64) := by
    funext a
    match a with
    | ⟨0, _⟩ => rfl
    | ⟨1, _⟩ => rfl
  have hemb : ((cfg0.win 4).blk t).view.emb j = ix2 (⟨t.val * 1024 + (j 0).val, hr⟩ : Fin 8192) (⟨(j 1).val, hj1⟩ : Fin 64) := by
    funext a; apply Fin.ext
    match a with
    | ⟨0, _⟩ => show win0_4.index t (0 : Fin 2) * 1024 + 1 * (j 0).val = t.val * 1024 + (j 0).val; omega
    | ⟨1, _⟩ => show win0_4.index t (1 : Fin 2) * 64 + 1 * (j 1).val = (j 1).val; omega
  show k0_pay3 (F := Ideal) (iblk0 V c 2 t) (iblk0 V c 1 t) ((win0 4).xinj (grid0.coords t) j) = Cert.Spec.linRelu (V c main_v1) (V c main_v3) (((cfg0.win 4).blk t).view.emb j)
  rw [hxj, hemb]
  refine pay3_point (V c main_v1) (V c main_v3) (iblk0 V c 1 t) (iblk0 V c 2 t) _ _ _ (fun k => ?_) (fun k => ?_)
  · show V c main_v1 (((cfg0.win 1).blk t).view.emb (ix2 (⟨(j 0).val, hj0⟩ : Fin 1024) k)) = _
    refine congrArg (V c main_v1) ?_
    funext a; apply Fin.ext
    match a with
    | ⟨0, _⟩ => show win0_1.index t (0 : Fin 2) * 1024 + 1 * (j 0).val = t.val * 1024 + (j 0).val; omega
    | ⟨1, _⟩ => show win0_1.index t (1 : Fin 2) * 256 + 1 * k.val = k.val; omega
  · show V c main_v3 (((cfg0.win 2).blk t).view.emb (ix2 k (⟨(j 1).val, hj1⟩ : Fin 64))) = _
    refine congrArg (V c main_v3) ?_
    funext a; apply Fin.ext
    match a with
    | ⟨0, _⟩ => show win0_2.index t (0 : Fin 2) * 256 + 1 * k.val = k.val; omega
    | ⟨1, _⟩ => show win0_2.index t (1 : Fin 2) * 64 + 1 * (j 1).val = (j 1).val; omega

/-- An index of the second output array is in point `t`'s block iff each coordinate is in the block's range on its axis. -/
theorem mem_blk4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v4_1).slice (win0_4.rect t)).set ↔ _
  rw [View.set_slice_whole, Rect.mem_set_unit]
  exact Iff.rfl

/-- Every index of the second output array is in the block of the point its row falls to. -/
theorem cover4 (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hlt : (i 0).val / 1024 < grid0.N := by rw [N_0]; omega
  obtain ⟨e00, e01, e10, e11, e20, e21, e30, e31, e40, e41⟩ := idx_facts ⟨(i 0).val / 1024, hlt⟩
  have f0 : win0_4.index ⟨(i 0).val / 1024, hlt⟩ (0 : Fin 2) = (i 0).val / 1024 := e40
  have f1 : win0_4.index ⟨(i 0).val / 1024, hlt⟩ (1 : Fin 2) = 0 := e41
  refine ⟨⟨(i 0).val / 1024, hlt⟩, flush0_4 _, ?_⟩
  rw [mem_blk4]
  intro a
  match a with
  | ⟨0, _⟩ => show win0_4.index ⟨(i 0).val / 1024, hlt⟩ (0 : Fin 2) * 1024 ≤ (i 0).val ∧ (i 0).val < win0_4.index ⟨(i 0).val / 1024, hlt⟩ (0 : Fin 2) * 1024 + 1024; omega
  | ⟨1, _⟩ => show win0_4.index ⟨(i 0).val / 1024, hlt⟩ (1 : Fin 2) * 64 ≤ (i 1).val ∧ (i 1).val < win0_4.index ⟨(i 0).val / 1024, hlt⟩ (1 : Fin 2) * 64 + 64; omega

/-- After the first kernel, its first output array is the neighbour features' linear layer with relu. -/
theorem hn_value (c : Dev nD) :
    (dat0 (F := Ideal) V c).arrAt 3 cfg0.N = Cert.Spec.linRelu (V c main_v0) (V c main_v3) :=
  (dat0 (F := Ideal) V c).arrAt_eq_of_cover 3 (Cert.Spec.linRelu (V c main_v0) (V c main_v3)) (fun t _ => flushed3_eq V c t) cover3

/-- Its second output array is the same layer on the nodes' own features. -/
theorem hs_value (c : Dev nD) :
    (dat0 (F := Ideal) V c).arrAt 4 cfg0.N = Cert.Spec.linRelu (V c main_v1) (V c main_v3) :=
  (dat0 (F := Ideal) V c).arrAt_eq_of_cover 4 (Cert.Spec.linRelu (V c main_v1) (V c main_v3)) (fun t _ => flushed4_eq V c t) cover4

end Cert.KernelIdeal.Region0
end
-- ==== Proof.Region1.lean ====
import proofs.«134431_j65051574665680_1_alg».proof.Proof.Gen.KernelIdeal.Frame
import proofs.«134431_j65051574665680_1_alg».proof.Proof.Spec
import proofs.«134431_j65051574665680_1_alg».proof.Proof.LibPlainDot
import Idealize.ShloMosaic.Lib.Pipeline.Value

set_option maxRecDepth 16384

noncomputable section

namespace Cert.KernelIdeal.Region1
open Idealize.ShloMosaic Idealize.ShloMosaic.TcCoe Idealize.ShloMosaic.ValueIdx
open Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

/-! ## The body's value at an entry -/

/-- The first product into the zero accumulator: the textbook sum over the 32 input features. -/
theorem hidden_apply (x0 : FVec Ideal S512x32 .bf16) (x1 : FVec Ideal S32x4096 .bf16) (p : Fin 512) (k : Fin 4096) :
    matmul dot_S512x32_S32x4096_S512x4096_1_0_0_1_n_n none x0 x1 (constant S512x4096 .f32 0x00000000#32) (ix2 p k)
      = ∑ d : Fin 32, x0 (ix2 p d) * x1 (ix2 d k) :=
  Cert.PlainDot.matmul_zero_apply (R := 512) (K := 32) (C := 4096) (φ₁ := .bf16) (φ₂ := .bf16)
    dot_S512x32_S32x4096_S512x4096_1_0_0_1_n_n rfl rfl rfl rfl rfl rfl none x0 x1 p k

/-- The bias row broadcast down the 512 rows reads, at `(p, k)`, the row's entry `(0, k)`. -/
theorem bias_apply (x2 : FVec Ideal S1x4096 .f32) (p : Fin 512) (k : Fin 4096) :
    broadcastTo S512x4096 x2 Gen.broadcasts_S1x4096_S512x4096 (ix2 p k) = x2 (ix2 0 k) :=
  broadcastTo_apply x2 Gen.broadcasts_S1x4096_S512x4096 (ix2 p k) (ix2 0 k) (fun a => by
    match a with
    | ⟨0, _⟩ => rfl
    | ⟨1, _⟩ => rfl)

/-- The hidden activation at `(p, k)`: the affine map of row `p`, clamped below at zero; the change of format is
    the identity on the extended reals. -/
theorem act_apply (x0 : Vec Ideal S512x32 .bf16) (x1 : Vec Ideal S32x4096 .bf16) (x2 : Vec Ideal S1x4096 .f32)
    (p : Fin 512) (k : Fin 4096) :
    (truncf .bf16 (maximumf (addf (matmul (F := Ideal) (φ₁ := .bf16) (φ₂ := .bf16) dot_S512x32_S32x4096_S512x4096_1_0_0_1_n_n none
        (shapeCast S512x32 x0 Gen.shapeCasts_S512x32_S512x32 : FVec Ideal S512x32 .bf16)
        (shapeCast S32x4096 x1 Gen.shapeCasts_S32x4096_S32x4096 : FVec Ideal S32x4096 .bf16)
        (constant S512x4096 .f32 0x00000000#32))
        (broadcastTo S512x4096 (shapeCast S1x4096 x2 Gen.shapeCasts_S1x4096_S1x4096 : FVec Ideal S1x4096 .f32) Gen.broadcasts_S1x4096_S512x4096))
        (broadcast S512x4096 (Scalar.ofBits (F := Ideal) .f32 0x00000000#32))) Gen.bitsLt_bf16_f32 : FVec Ideal S512x4096 .bf16) (ix2 p k)
      = max ((∑ d : Fin 32, x0 (ix2 p d) * x1 (ix2 d k)) + x2 (ix2 0 k)) 0 := by
  rw [shapeCast_self, shapeCast_self, shapeCast_self]
  show max (matmul (F := Ideal) (φ₁ := .bf16) (φ₂ := .bf16) dot_S512x32_S32x4096_S512x4096_1_0_0_1_n_n none x0 x1 (constant S512x4096 .f32 0x00000000#32) (ix2 p k)
      + broadcastTo S512x4096 (x2 : FVec Ideal S1x4096 .f32) Gen.broadcasts_S1x4096_S512x4096 (ix2 p k)) (Ideal.ofBits .f32 0x00000000#32) = _
  rw [hidden_apply, bias_apply, Ideal.ofBits_zero_f32]

/-- THE PAYLOAD AT AN ENTRY: the activation of row `p` contracted with column `q` of the selector block. -/
theorem pay_apply (x0 : Vec Ideal S512x32 .bf16) (x1 : Vec Ideal S32x4096 .bf16) (x2 : Vec Ideal S1x4096 .f32)
    (x3 : Vec Ideal S4096x64 .bf16) (p : Fin 512) (q : Fin 64) :
    k1_pay1 (F := Ideal) x0 x1 x2 x3 (ix2 p q)
      = ∑ k : Fin 4096, max ((∑ d : Fin 32, x0 (ix2 p d) * x1 (ix2 d k)) + x2 (ix2 0 k)) 0 * x3 (ix2 k q) := by
  unfold k1_pay1
  refine (Cert.PlainDot.matmul_zero_apply (R := 512) (K := 4096) (C := 64) (φ₁ := .bf16) (φ₂ := .bf16)
    dot_S512x4096_S4096x64_S512x64_1_0_0_1_n_n rfl rfl rfl rfl rfl rfl none _ _ p q).trans ?_
  refine Finset.sum_congr rfl fun k _ => ?_
  refine congrArg₂ (· * ·) (act_apply x0 x1 x2 p k) ?_
  exact congrFun (shapeCast_self x3 Gen.shapeCasts_S4096x64_S4096x64) (ix2 k q)

/-- THE PER-POINT EQUATION over plain vectors: if the four blocks hold the rows of the arrays that the output's
    row `r` needs — row `r` of the edge features, and the whole weight, bias and selector — then the payload at
    `(p, q)` is the specification's entry `(r, q)`. -/
theorem point_eq (ef : S65536x32.Idx → EReal) (w : S32x4096.Idx → EReal) (b : S1x4096.Idx → EReal) (sel : S4096x64.Idx → EReal)
    (x0 : Vec Ideal S512x32 .bf16) (x1 : Vec Ideal S32x4096 .bf16) (x2 : Vec Ideal S1x4096 .f32) (x3 : Vec Ideal S4096x64 .bf16)
    (p : Fin 512) (q : Fin 64) (r : Fin 65536)
    (h0 : ∀ d : Fin 32, x0 (ix2 p d) = ef (ix2 r d)) (h1 : ∀ (d : Fin 32) (k : Fin 4096), x1 (ix2 d k) = w (ix2 d k))
    (h2 : ∀ k : Fin 4096, x2 (ix2 0 k) = b (ix2 0 k)) (h3 : ∀ k : Fin 4096, x3 (ix2 k q) = sel (ix2 k q)) :
    k1_pay1 (F := Ideal) x0 x1 x2 x3 (ix2 p q) = Cert.Spec.edgeSel ef w b sel (ix2 r q) := by
  refine (pay_apply x0 x1 x2 x3 p q).trans ?_
  show _ = ∑ k : Fin 4096, max ((∑ d : Fin 32, ef (ix2 r d) * w (ix2 d k)) + b (ix2 0 k)) 0 * sel (ix2 k q)
  refine Finset.sum_congr rfl fun k _ => ?_
  rw [h2 k, h3 k]
  refine congrArg (fun s => max (s + b (ix2 0 k)) 0 * sel (ix2 k q)) ?_
  refine Finset.sum_congr rfl fun d _ => ?_
  rw [h0 d, h1 d k]

/-! ## From blocks to the array -/

theorem hz : (![0, 0] : Fin 2 → Nat) = fun _ => 0 := funext fun a => by fin_cases a <;> rfl

/-- The printed index maps, decided over the grid: the edge-feature window and the output window sit at block row
    `t` (column block 0) at point `t`; the weight, bias and selector windows sit at block `(0, 0)` at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of the specification's array of the arrays as the region finds them. -/
theorem flushed_eq (c : Dev nD) (t : Fin cfg1.N) :
    (dat1 (F := Ideal) V c).flushed 4 t
      = ((cfg1.win 4).blk t).view.read (Elt Ideal) (Cert.Spec.edgeSel (V c main_v5) (V c main_v7) (V c main_v8) (V c main_v17)) := by
  show (cfg1.win 4).cut (grid1.coords t) ((dat1 V c).after 4 t) = _
  rw [after1_4]
  unfold out1_4
  rw [View.canon_unit_zero hz]
  simp only [View.ld_unit_zero (S := S512x32) hz, View.ld_unit_zero (S := S32x4096) hz, View.ld_unit_zero (S := S1x4096) hz,
    View.ld_unit_zero (S := S4096x64) hz]
  obtain ⟨e00, e01, e10, e11, e20, e21, e30, e31, e40, e41⟩ := idx_facts t
  have ht : t.val < 128 := t.isLt
  funext j
  obtain ⟨p, q, rfl⟩ : ∃ (p : Fin 512) (q : Fin 64), j = ix2 p q := ⟨j 0, j 1, eq_ix2 j⟩
  have hp : p.val < 512 := p.isLt
  show k1_pay1 (F := Ideal) (iblk1 V c 0 t) (iblk1 V c 1 t) (iblk1 V c 2 t) (iblk1 V c 3 t) (ix2 p q)
    = Cert.Spec.edgeSel (V c main_v5) (V c main_v7) (V c main_v8) (V c main_v17) (((cfg1.win 4).blk t).view.emb (ix2 p q))
  have hemb : ((cfg1.win 4).blk t).view.emb (ix2 p q) = (ix2 (⟨t.val * 512 + p.val, by omega⟩ : Fin 65536) q : S65536x64.Idx) := by
    funext a; apply Fin.ext
    match a with
    | ⟨0, _⟩ => show win1_4.index t (0 : Fin 2) * 512 + 1 * p.val = t.val * 512 + p.val; omega
    | ⟨1, _⟩ => show win1_4.index t (1 : Fin 2) * 64 + 1 * q.val = q.val; omega
  rw [hemb]
  refine point_eq (V c main_v5) (V c main_v7) (V c main_v8) (V c main_v17) (iblk1 V c 0 t) (iblk1 V c 1 t) (iblk1 V c 2 t) (iblk1 V c 3 t)
    p q ⟨t.val * 512 + p.val, by omega⟩ ?_ ?_ ?_ ?_
  · intro d
    show V c main_v5 (((cfg1.win 0).blk t).view.emb (ix2 p d)) = V c main_v5 (ix2 (⟨t.val * 512 + p.val, by omega⟩ : Fin 65536) d)
    refine congrArg (V c main_v5) (funext fun a => Fin.ext ?_)
    match a with
    | ⟨0, _⟩ => show win1_0.index t (0 : Fin 2) * 512 + 1 * p.val = t.val * 512 + p.val; omega
    | ⟨1, _⟩ => show win1_0.index t (1 : Fin 2) * 32 + 1 * d.val = d.val; omega
  · intro d k
    show V c main_v7 (((cfg1.win 1).blk t).view.emb (ix2 d k)) = V c main_v7 (ix2 d k)
    refine congrArg (V c main_v7) (funext fun a => Fin.ext ?_)
    match a with
    | ⟨0, _⟩ => show win1_1.index t (0 : Fin 2) * 32 + 1 * d.val = d.val; omega
    | ⟨1, _⟩ => show win1_1.index t (1 : Fin 2) * 4096 + 1 * k.val = k.val; omega
  · intro k
    show V c main_v8 (((cfg1.win 2).blk t).view.emb (ix2 0 k)) = V c main_v8 (ix2 0 k)
    refine congrArg (V c main_v8) (funext fun a => Fin.ext ?_)
    match a with
    | ⟨0, _⟩ => show win1_2.index t (0 : Fin 2) * 1 + 1 * 0 = 0; omega
    | ⟨1, _⟩ => show win1_2.index t (1 : Fin 2) * 4096 + 1 * k.val = k.val; omega
  · intro k
    show V c main_v17 (((cfg1.win 3).blk t).view.emb (ix2 k q)) = V c main_v17 (ix2 k q)
    refine congrArg (V c main_v17) (funext fun a => Fin.ext ?_)
    match a with
    | ⟨0, _⟩ => show win1_3.index t (0 : Fin 2) * 4096 + 1 * k.val = k.val; omega
    | ⟨1, _⟩ => show win1_3.index t (1 : Fin 2) * 64 + 1 * q.val = q.val; omega
/-- An index of the array is in point `t`'s block iff each coordinate is in the block's range on its axis. -/
theorem mem_blk (t : Fin cfg1.N) (i : S65536x64.Idx) :
    i ∈ ((cfg1.win 4).blk t).view.set ↔ ∀ a : Fin 2, win1_4.index t a * S512x64.size a ≤ (i a).val
      ∧ (i a).val < win1_4.index t a * S512x64.size a + S512x64.size a := by
  show i ∈ ((View.whole main_v18).slice (win1_4.rect t)).set ↔ _
  rw [View.set_slice_whole, Rect.mem_set_unit]
  exact Iff.rfl

/-- THE COVER: row `r` of the array lies in the block of point `r / 512`, and every point writes its block back. -/
theorem covered (i : S65536x64.Idx) :
    ∃ t : Fin cfg1.N, (cfg1.win 4).flush t = true ∧ i ∈ ((cfg1.win 4).blk t).view.set := by
  have hi0 : (i 0).val < 65536 := (i 0).isLt
  have hi1 : (i 1).val < 64 := (i 1).isLt
  obtain ⟨t, ht⟩ : ∃ t : Fin cfg1.N, t.val = (i 0).val / 512 :=
    ⟨⟨(i 0).val / 512, by rw [show cfg1.N = 128 from N_1]; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 64 ≤ (i 1).val ∧ (i 1).val < win1_4.index t (1 : Fin 2) * 64 + 64
    omega

/-- After the second kernel, its output array is the edge activation contracted with the selector operand. -/
theorem s_value (c : Dev nD) :
    (dat1 (F := Ideal) V c).arrAt 4 cfg1.N = Cert.Spec.edgeSel (V c main_v5) (V c main_v7) (V c main_v8) (V c main_v17) :=
  (dat1 (F := Ideal) V c).arrAt_eq_of_cover 4 (Cert.Spec.edgeSel (V c main_v5) (V c main_v7) (V c main_v8) (V c main_v17))
    (fun t _ => flushed_eq V c t) covered

end Cert.KernelIdeal.Region1
end
-- ==== Proof.Region2.lean ====
import proofs.«134431_j65051574665680_1_alg».proof.Proof.Gen.KernelIdeal.Frame
import proofs.«134431_j65051574665680_1_alg».proof.Proof.Spec
import proofs.«134431_j65051574665680_1_alg».proof.Proof.LibPlainDot
import Idealize.ShloMosaic.Lib.Pipeline.Value

set_option maxRecDepth 16384

noncomputable section

namespace Cert.KernelIdeal.Region2
open Idealize.ShloMosaic Idealize.ShloMosaic.TcCoe Idealize.ShloMosaic.ValueIdx
open Idealize.SL.Sem
open Idealize.ShloMosaic.Pipeline (Dat Cfg Window)
open Cert.KernelIdeal Cert.KernelIdeal.Facts₀ Cert.KernelIdeal.Gen

variable (V : (c : Dev nD) → (b : Ref sig .tc) → Buf (Elt Ideal) ((c : Thread nD τ).loc b))

/-- The zero offsets of a whole-block access, spelt as the constant function. -/
theorem zero_off : (![0, 0] : Fin 2 → Nat) = fun _ => 0 := funext fun a => by fin_cases a <;> rfl

/-- One of the body's two products into the zero accumulator, read at entry `(p, q)`: the same-shape casts are the
    identity, and the product is the sum over the 64 contraction positions. -/
theorem product_apply (x : FVec Ideal S2048x64 .bf16) (w : FVec Ideal S64x64 .bf16)
    (hx : S2048x64.ShapeCasts S2048x64) (hw : S64x64.ShapeCasts S64x64) (p : Fin 2048) (q : Fin 64) :
    matmul (F := Ideal) dot_S2048x64_S64x64_S2048x64_1_0_0_1_n_n none (shapeCast S2048x64 x hx)
        (shapeCast S64x64 w hw) (constant (F := Ideal) S2048x64 .f32 0x00000000#32) (ix2 p q)
      = ∑ k : Fin 64, x (ix2 p k) * w (ix2 k q) := by
  rw [shapeCast_self, shapeCast_self]
  exact Cert.PlainDot.matmul_zero_apply (R := 2048) (K := 64) (C := 64) (φ₁ := .bf16) (φ₂ := .bf16)
    dot_S2048x64_S64x64_S2048x64_1_0_0_1_n_n rfl rfl rfl rfl rfl rfl none x w p q

/-- The zero literal of the body is the extended real zero. -/
theorem zero_lit : (FloatOps.ofBits (F := Ideal) .f32 0x00000000#32 : EReal) = 0 := Ideal.ofBits_zero_f32

/-- The body's stored value at entry `(p, q)` of its block: relu of the sum of the two relu'd products. -/
theorem payload_apply (x0 x1 : FVec Ideal S2048x64 .bf16) (w2 w3 : FVec Ideal S64x64 .bf16) (p : Fin 2048) (q : Fin 64) :
    k2_pay1 (F := Ideal) x0 w2 x1 w3 (ix2 p q)
      = max (max (∑ k : Fin 64, x0 (ix2 p k) * w2 (ix2 k q)) 0 + max (∑ k : Fin 64, x1 (ix2 p k) * w3 (ix2 k q)) 0) 0 := by
  unfold k2_pay1
  simp only [maximumf_apply, addf_apply, broadcast_apply]
  rw [product_apply, product_apply, zero_lit]

/-- The stored value at block entry `(p, q)` is the combined layer at array entry `(P, Q)` whenever row `p` of each
    activation block is row `P` of its array and column `q` of each weight block is column `Q` of its array. -/
theorem payload_eq_combine (hs ng : S8192x64.Idx → EReal) (ws wn : S64x64.Idx → EReal)
    (x0 x1 : FVec Ideal S2048x64 .bf16) (w2 w3 : FVec Ideal S64x64 .bf16)
    (p : Fin 2048) (q : Fin 64) (P : Fin 8192) (Q : Fin 64)
    (h0 : ∀ k : Fin 64, x0 (ix2 p k) = hs (ix2 P k)) (h1 : ∀ k : Fin 64, x1 (ix2 p k) = ng (ix2 P k))
    (h2 : ∀ k : Fin 64, w2 (ix2 k q) = ws (ix2 k Q)) (h3 : ∀ k : Fin 64, w3 (ix2 k q) = wn (ix2 k Q)) :
    k2_pay1 (F := Ideal) x0 w2 x1 w3 (ix2 p q)
      = max (Cert.Spec.linReluAt hs ws P Q + Cert.Spec.linReluAt ng wn P Q) 0 := by
  rw [payload_apply]
  unfold Cert.Spec.linReluAt
  simp only [h0, h1, h2, h3]

/-- The printed index maps, decided over the four grid points: the activation windows and the output window sit at row
    block `t`, column block 0; the weight windows at block `(0, 0)`. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every row block of the output is some point's. -/
theorem index_onto : ∀ (b : Fin 4), ∃ t : Fin cfg2.N, win2_4.index t = ![b.val, 0] :=
  (by decide +kernel : ∀ (b : Fin 4), ∃ t : Fin grid2.N, win2_4.index t = ![b.val, 0])

/-- WHAT POINT `t` WRITES BACK is block `t` of the combined layer of the four operand arrays as the region finds them:
    row `p` of the activation blocks is row `2048 t + p` of their arrays, which is the row of the output block's entry;
    the weight blocks are the whole weight arrays. -/
theorem flushed_eq (c : Dev nD) (t : Fin cfg2.N) :
    (dat2 (F := Ideal) V c).flushed 4 t = ((cfg2.win 4).blk t).view.read (Elt Ideal)
      (Cert.Spec.combine (V c main_v39) (V c main_v40) (V c main_v42) (V c main_v44)) := by
  show (cfg2.win 4).cut (grid2.coords t) ((dat2 (F := Ideal) V c).after 4 t) = _
  rw [after2_4]
  unfold out2_4
  rw [View.canon_unit_zero zero_off]
  simp only [View.ld_unit_zero (S := S2048x64) zero_off, View.ld_unit_zero (S := S64x64) zero_off]
  obtain ⟨e00, e01, e10, e11, e20, e21, e30, e31, e40, e41⟩ := index_facts t
  funext j
  obtain ⟨p, q, rfl⟩ : ∃ (p : Fin 2048) (q : Fin 64), j = ix2 p q := ⟨j 0, j 1, eq_ix2 j⟩
  refine (payload_eq_combine (V c main_v39) (V c main_v40) (V c main_v42) (V c main_v44)
    (iblk2 V c 0 t) (iblk2 V c 1 t) (iblk2 V c 2 t) (iblk2 V c 3 t) p q
    ((((cfg2.win 4).blk t).view.emb (ix2 p q)) 0) ((((cfg2.win 4).blk t).view.emb (ix2 p q)) 1) ?_ ?_ ?_ ?_)
  · intro k
    show V c main_v39 (((cfg2.win 0).blk t).view.emb (ix2 p k)) = _
    congr 1
    funext a; apply Fin.ext
    match a with
    | ⟨0, _⟩ => show win2_0.index t (0 : Fin 2) * 2048 + 1 * p.val = win2_4.index t (0 : Fin 2) * 2048 + 1 * p.val; omega
    | ⟨1, _⟩ => show win2_0.index t (1 : Fin 2) * 64 + 1 * k.val = k.val; omega
  · intro k
    show V c main_v40 (((cfg2.win 1).blk t).view.emb (ix2 p k)) = _
    congr 1
    funext a; apply Fin.ext
    match a with
    | ⟨0, _⟩ => show win2_1.index t (0 : Fin 2) * 2048 + 1 * p.val = win2_4.index t (0 : Fin 2) * 2048 + 1 * p.val; omega
    | ⟨1, _⟩ => show win2_1.index t (1 : Fin 2) * 64 + 1 * k.val = k.val; omega
  · intro k
    show V c main_v42 (((cfg2.win 2).blk t).view.emb (ix2 k q)) = _
    congr 1
    funext a; apply Fin.ext
    match a with
    | ⟨0, _⟩ => show win2_2.index t (0 : Fin 2) * 64 + 1 * k.val = k.val; omega
    | ⟨1, _⟩ => show win2_2.index t (1 : Fin 2) * 64 + 1 * q.val = win2_4.index t (1 : Fin 2) * 64 + 1 * q.val; omega
  · intro k
    show V c main_v44 (((cfg2.win 3).blk t).view.emb (ix2 k q)) = _
    congr 1
    funext a; apply Fin.ext
    match a with
    | ⟨0, _⟩ => show win2_3.index t (0 : Fin 2) * 64 + 1 * k.val = k.val; omega
    | ⟨1, _⟩ => show win2_3.index t (1 : Fin 2) * 64 + 1 * q.val = win2_4.index t (1 : Fin 2) * 64 + 1 * q.val; omega

/-- An index of the output array is in point `t`'s block iff each coordinate is in the block's range on its axis. -/
theorem mem_blk (t : Fin cfg2.N) (i : S8192x64.Idx) :
    i ∈ ((cfg2.win 4).blk t).view.set ↔ ∀ a : Fin 2, win2_4.index t a * S2048x64.size a ≤ (i a).val ∧ (i a).val < win2_4.index t a * S2048x64.size a + S2048x64.size a := by
  show i ∈ ((View.whole main_v45).slice (win2_4.rect t)).set ↔ _
  rw [View.set_slice_whole, Rect.mem_set_unit]
  exact Iff.rfl

/-- THE BLOCKS COVER THE ARRAY: row `r` is in the block of point `r / 2048`, and every block spans all 64 columns. -/
theorem covered (i : S8192x64.Idx) :
    ∃ t : Fin cfg2.N, (cfg2.win 4).flush t = true ∧ i ∈ ((cfg2.win 4).blk t).view.set := by
  have hi0 : (i 0).val < 8192 := (i 0).isLt
  have hi1 : (i 1).val < 64 := (i 1).isLt
  obtain ⟨t, ht⟩ := index_onto ⟨(i 0).val / 2048, by omega⟩
  have q0 : win2_4.index t (0 : Fin 2) = (i 0).val / 2048 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 64 ≤ (i 1).val ∧ (i 1).val < win2_4.index t (1 : Fin 2) * 64 + 64; omega

/-- After the third kernel, its output array is the combined layer of its four operands. -/
theorem z_value (c : Dev nD) :
    (dat2 (F := Ideal) V c).arrAt 4 cfg2.N = Cert.Spec.combine (V c main_v39) (V c main_v40) (V c main_v42) (V c main_v44) :=
  (dat2 (F := Ideal) V c).arrAt_eq_of_cover 4 _ (fun t _ => flushed_eq V c t) covered

end Cert.KernelIdeal.Region2
end
-- ==== Proof.FoldTail.lean ====
import proofs.«134431_j65051574665680_1_alg».proof.Proof.Gen.KernelIdeal.Frame
import proofs.«134431_j65051574665680_1_alg».proof.Proof.Spec
import proofs.«134431_j65051574665680_1_alg».proof.Proof.LibPlainDot
import proofs.«134431_j65051574665680_1_alg».proof.Proof.Chain
set_option maxRecDepth 16384

noncomputable section

namespace Cert.KernelIdeal.Fold
open Idealize.ShloMosaic Idealize.ShloMosaic.TcCoe Idealize.ShloMosaic.ValueIdx
open Idealize.SL.Sem
open Idealize.ShloMosaic.Pipeline (Dat Cfg Window)
open Cert.KernelIdeal Cert.KernelIdeal.Facts₀ Cert.KernelIdeal.Gen

variable (m : (ℓ : Loc nD τ sig) → Buf (Elt Ideal) ℓ) (ρ : Dev nD → PrngReg)

/-! The buffers the third kernel's host stretch reads, as the second kernel leaves them: the first kernel's two outputs
    (unchanged since that kernel's exit: no later host operation and no window of the second kernel writes them), the
    second kernel's output, and four arguments (as launched: nothing writes an argument). -/

/-- The first kernel's second output is untouched between its exit and the third kernel's host stretch. -/
private theorem W6_v4_1 (c : Dev nD) : W6 m ρ c (Proc.devRef .tc main_v4_1) = (dat0 (V1 m ρ) c).arrAt 4 cfg0.N :=
  calc W6 m ρ c (Proc.devRef .tc main_v4_1)
    _ = W5 m ρ c (Proc.devRef .tc main_v4_1) := W6_of_ne m ρ c main_v4_1 (by decide)
    _ = W4 m ρ c (Proc.devRef .tc main_v4_1) := StableHlo.after_of_forall_not_mem (b := Proc.devRef .tc main_v4_1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4_1) := StableHlo.after_of_forall_not_mem (b := Proc.devRef .tc main_v4_1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v4_1) := StableHlo.after_of_forall_not_mem (b := Proc.devRef .tc main_v4_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4

/-- So is its first output. -/
private theorem W6_v4_0 (c : Dev nD) : W6 m ρ c (Proc.devRef .tc main_v4_0) = (dat0 (V1 m ρ) c).arrAt 3 cfg0.N :=
  calc W6 m ρ c (Proc.devRef .tc main_v4_0)
    _ = W5 m ρ c (Proc.devRef .tc main_v4_0) := W6_of_ne m ρ c main_v4_0 (by decide)
    _ = W4 m ρ c (Proc.devRef .tc main_v4_0) := StableHlo.after_of_forall_not_mem (b := Proc.devRef .tc main_v4_0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4_0) := StableHlo.after_of_forall_not_mem (b := Proc.devRef .tc main_v4_0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v4_0) := StableHlo.after_of_forall_not_mem (b := Proc.devRef .tc main_v4_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

/-- The second kernel's output at its exit. -/
private theorem W6_v18 (c : Dev nD) : W6 m ρ c (Proc.devRef .tc main_v18) = (dat1 (V5 m ρ) c).arrAt 4 cfg1.N :=
  W6_arr m ρ c 4

/-- Argument 4 is as launched when the second kernel exits. -/
private theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 is as launched when the second kernel exits. -/
private theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 8 is as launched when the second kernel exits. -/
private theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 9 is as launched when the second kernel exits. -/
private theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! The third kernel's operands at its entry: each is the value its host operations compute from those buffers; at the
    ideal reals the change of float format is the identity. -/

/-- The third kernel's first operand is the first kernel's second output (a change of format, the identity). -/
theorem V7_v39 (c : Dev nD) : V7 m ρ c main_v39 = (dat0 (V1 m ρ) c).arrAt 4 cfg0.N := by
  show StableHlo.after hostOps2 (W6 m ρ c) (Proc.devRef .tc main_v39) = _
  after_results
  rw [W6_v4_1]
  rfl

/-- Its second operand is the host chain applied to the first kernel's first output, the second kernel's output and the
    two index arguments. -/
theorem V7_v40 (c : Dev nD) : V7 m ρ c main_v40
    = Cert.Chain.neighK ((dat0 (V1 m ρ) c).arrAt 3 cfg0.N) ((dat1 (V5 m ρ) c).arrAt 4 cfg1.N)
        (m ((c : Thread nD τ).loc main_arg8)) (m ((c : Thread nD τ).loc main_arg9)) := by
  show StableHlo.after hostOps2 (W6 m ρ c) (Proc.devRef .tc main_v40) = _
  after_results_simp
  rw [W6_v4_0, W6_v18, W6_arg8, W6_arg9]
  rfl

/-- Its weights are the transposed weight arguments. -/
theorem V7_v42 (c : Dev nD) : V7 m ρ c main_v42 = transpose S64x64 [1, 0] (m ((c : Thread nD τ).loc main_arg4)) Facts₀.transposes_S64x64_S64x64_1_0 := by
  show StableHlo.after hostOps2 (W6 m ρ c) (Proc.devRef .tc main_v42) = _
  after_results
  rw [W6_arg4]
  rfl
theorem V7_v44 (c : Dev nD) : V7 m ρ c main_v44 = transpose S64x64 [1, 0] (m ((c : Thread nD τ).loc main_arg5)) Facts₀.transposes_S64x64_S64x64_1_0 := by
  show StableHlo.after hostOps2 (W6 m ρ c) (Proc.devRef .tc main_v44) = _
  after_results
  rw [W6_arg5]
  rfl

end Cert.KernelIdeal.Fold
end
-- ==== Proof.FoldHead.lean ====
import proofs.«134431_j65051574665680_1_alg».proof.Proof.Gen.KernelIdeal.Frame
import proofs.«134431_j65051574665680_1_alg».proof.Proof.Spec
import proofs.«134431_j65051574665680_1_alg».proof.Proof.LibPlainDot

set_option maxRecDepth 16384

noncomputable section

namespace Cert.KernelIdeal.Fold
open Idealize.ShloMosaic Idealize.ShloMosaic.TcCoe Idealize.ShloMosaic.ValueIdx
open Idealize.SL.Sem
open Idealize.ShloMosaic.Pipeline (Dat Cfg Window)
open Cert.KernelIdeal Cert.KernelIdeal.Facts₀ Cert.KernelIdeal.Gen

variable (m : (ℓ : Loc nD τ sig) → Buf (Elt Ideal) ℓ) (ρ : Dev nD → PrngReg)

/-- No operation of a stretch writes the buffer: the side condition of walking a stretch back. -/
local macro "not_written" l:ident : tactic =>
  `(tactic| (refine List.forall_iff_forall_mem.mp ?_
             simp only [$l:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The first kernel's operands: the two feature arguments and the transposed weight argument. -/
theorem V1_v0 (c : Dev nD) : V1 m ρ c main_v0 = m ((c : Thread nD τ).loc main_arg0) := by
  show StableHlo.after hostOps0 (W0 m ρ c) (Proc.devRef .tc main_v0) = _
  after_results
  rfl
theorem V1_v1 (c : Dev nD) : V1 m ρ c main_v1 = m ((c : Thread nD τ).loc main_arg1) := by
  show StableHlo.after hostOps0 (W0 m ρ c) (Proc.devRef .tc main_v1) = _
  after_results
  rfl
theorem V1_v3 (c : Dev nD) : V1 m ρ c main_v3 = transpose S256x64 [1, 0] (m ((c : Thread nD τ).loc main_arg3)) Facts₀.transposes_S64x256_S256x64_1_0 := by
  show StableHlo.after hostOps0 (W0 m ρ c) (Proc.devRef .tc main_v3) = _
  after_results
  rfl

/-- An argument buffer the first kernel does not own, at the first kernel's exit, is as launched. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) :=
          StableHlo.after_of_forall_not_mem (b := Proc.devRef .tc main_arg2) _ _ (by not_written hostOps0)
    _ = m ((c : Thread nD τ).loc main_arg2) := rfl
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) :=
          StableHlo.after_of_forall_not_mem (b := Proc.devRef .tc main_arg6) _ _ (by not_written hostOps0)
    _ = m ((c : Thread nD τ).loc main_arg6) := rfl
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) :=
          StableHlo.after_of_forall_not_mem (b := Proc.devRef .tc main_arg7) _ _ (by not_written hostOps0)
    _ = m ((c : Thread nD τ).loc main_arg7) := rfl

/-- A buffer the two later stretches before the second kernel do not write is, at its entry, what the first
    of the three stretches left. -/
theorem W5_v5 (c : Dev nD) : W5 m ρ c (Proc.devRef .tc main_v5) = W3 m ρ c (Proc.devRef .tc main_v5) :=
  calc W5 m ρ c (Proc.devRef .tc main_v5)
    _ = W4 m ρ c (Proc.devRef .tc main_v5) :=
          StableHlo.after_of_forall_not_mem (b := Proc.devRef .tc main_v5) _ _ (by not_written hostOps1_2)
    _ = W3 m ρ c (Proc.devRef .tc main_v5) :=
          StableHlo.after_of_forall_not_mem (b := Proc.devRef .tc main_v5) _ _ (by not_written hostOps1_1)
theorem W5_v7 (c : Dev nD) : W5 m ρ c (Proc.devRef .tc main_v7) = W3 m ρ c (Proc.devRef .tc main_v7) :=
  calc W5 m ρ c (Proc.devRef .tc main_v7)
    _ = W4 m ρ c (Proc.devRef .tc main_v7) :=
          StableHlo.after_of_forall_not_mem (b := Proc.devRef .tc main_v7) _ _ (by not_written hostOps1_2)
    _ = W3 m ρ c (Proc.devRef .tc main_v7) :=
          StableHlo.after_of_forall_not_mem (b := Proc.devRef .tc main_v7) _ _ (by not_written hostOps1_1)
theorem W5_v8 (c : Dev nD) : W5 m ρ c (Proc.devRef .tc main_v8) = W3 m ρ c (Proc.devRef .tc main_v8) :=
  calc W5 m ρ c (Proc.devRef .tc main_v8)
    _ = W4 m ρ c (Proc.devRef .tc main_v8) :=
          StableHlo.after_of_forall_not_mem (b := Proc.devRef .tc main_v8) _ _ (by not_written hostOps1_2)
    _ = W3 m ρ c (Proc.devRef .tc main_v8) :=
          StableHlo.after_of_forall_not_mem (b := Proc.devRef .tc main_v8) _ _ (by not_written hostOps1_1)

/-- The second kernel's operands: the edge features, the transposed edge weights, the bias as one row. -/
theorem V5_v5 (c : Dev nD) : V5 m ρ c main_v5 = m ((c : Thread nD τ).loc main_arg2) := by
  show W5 m ρ c (Proc.devRef .tc main_v5) = _
  rw [W5_v5]
  show StableHlo.after hostOps1 (W2 m ρ c) (Proc.devRef .tc main_v5) = _
  after_results
  rw [W2_arg2]
  rfl
theorem V5_v7 (c : Dev nD) : V5 m ρ c main_v7 = transpose S32x4096 [1, 0] (m ((c : Thread nD τ).loc main_arg6)) Facts₀.transposes_S4096x32_S32x4096_1_0 := by
  show W5 m ρ c (Proc.devRef .tc main_v7) = _
  rw [W5_v7]
  show StableHlo.after hostOps1 (W2 m ρ c) (Proc.devRef .tc main_v7) = _
  after_results
  rw [W2_arg6]
  rfl
theorem V5_v8 (c : Dev nD) (k : Fin 4096) : V5 m ρ c main_v8 (ix2 0 k) = m ((c : Thread nD τ).loc main_arg7) (ix1 k) := by
  show W5 m ρ c (Proc.devRef .tc main_v8) (ix2 0 k) = _
  rw [W5_v8]
  show StableHlo.after hostOps1 (W2 m ρ c) (Proc.devRef .tc main_v8) (ix2 0 k) = _
  after_results
  rw [W2_arg7]
  show shapeCast S1x4096 (m ((c : Thread nD τ).loc main_arg7)) Gen.shapeCasts_S4096_S1x4096 (ix2 0 k) = _
  unfold shapeCast
  refine congrArg (m ((c : Thread nD τ).loc main_arg7)) (Shape.reshapeEquiv_eq_of_rowMajor _ ?_)
  show ((⟨1, ![4096]⟩ : Shape).rowMajor (ix1 k)).val = ((⟨2, ![1, 4096]⟩ : Shape).rowMajor (ix2 (0 : Fin 1) k)).val
  rw [Shape.rowMajor_val_one, Shape.rowMajor_val_two]
  show k.val = 0 * 4096 + k.val
  omega

end Cert.KernelIdeal.Fold
end
-- ==== Proof.SelTable.lean ====
import proofs.«134431_j65051574665680_1_alg».proof.Proof.Gen.KernelIdeal.Frame
import proofs.«134431_j65051574665680_1_alg».proof.Proof.Spec
import proofs.«134431_j65051574665680_1_alg».proof.Proof.LibPlainDot
import Idealize.ShloMosaic.Lib.StableHlo.Predicate

set_option maxRecDepth 16384

noncomputable section

namespace Cert.KernelIdeal.Fold
open Idealize.ShloMosaic Idealize.ShloMosaic.TcCoe Idealize.ShloMosaic.ValueIdx
open Idealize.SL.Sem
open Idealize.ShloMosaic.Pipeline (Dat Cfg Window)
open Cert.KernelIdeal Cert.KernelIdeal.Facts₀ Cert.KernelIdeal.Gen

variable (m : (ℓ : Loc nD τ sig) → Buf (Elt Ideal) ℓ) (ρ : Dev nD → PrngReg)

namespace SelTable

/-- The floored remainder (the result takes the divisor's sign), as the host stretch before the second kernel computes
    it from a column `x` of words and a scalar divisor `d`: the divisor with zero replaced by one, the signed remainder,
    and the divisor added back where the remainder is nonzero and of the other sign. -/
def remFix (x : IVec S4096x1 32) (d : IVec S_ 32) : IVec S4096x1 32 :=
  let w : IVec S_ 32 := select (cmpi .eq d (constantI S_ 32 0#32)) (constantI S_ 32 1#32) d
  let r : IVec S4096x1 32 := Host.remsi x (broadcastInDim S4096x1 ![] Gen.bcast_S_S4096x1 w)
  let z : IVec S4096x1 32 := broadcastInDim S4096x1 ![] Gen.bcast_S_S4096x1 (constantI S_ 32 0#32)
  select
    (andi (cmpi .ne (cmpi .slt r z) (broadcastInDim S4096x1 ![] Gen.bcast_S_S4096x1 (cmpi .slt w (constantI S_ 32 0#32))))
      (cmpi .ne r z))
    (addi r (broadcastInDim S4096x1 ![] Gen.bcast_S_S4096x1 w)) r

/-! ## What each host stretch leaves, over any contents at its entry

Each stretch is read over an arbitrary valuation at its entry, so that the fold through the program stays closed: the
equation names the operands' buffers and nothing before them. -/

/-- The last stretch: the selector is the comparison, widened to a float, of the remainder column laid along the rows with
    the column-index row laid down the columns. -/
theorem v17_of (V : Valuation τ sig (Elt Ideal)) :
    StableHlo.after hostOps1_2 V (Proc.devRef .tc main_v17)
      = uitofp (F := Ideal) .bf16 (cmpi .eq
          (broadcastInDim S4096x64 ![0, 1] Gen.bcast_S4096x1_S4096x64_0_1 (V (Proc.devRef .tc main_v13)))
          (broadcastInDim S4096x64 ![0, 1] Gen.bcast_S1x64_S4096x64_0_1 (V (Proc.devRef .tc main_v12)))) := by
  after_results <;> rfl

set_option maxHeartbeats 1000000 in
/-- The remainder call: its result is `remFix` of the row-index column and the divisor. -/
theorem v13_of (V : Valuation τ sig (Elt Ideal)) :
    StableHlo.after hostOps1_1 V (Proc.devRef .tc main_v13)
      = remFix (V (Proc.devRef .tc main_v10)) (V (Proc.devRef .tc main_c)) := by
  after_results
  rfl

/-- The remainder call does not write the column-index row. -/
theorem v12_keep (V : Valuation τ sig (Elt Ideal)) :
    StableHlo.after hostOps1_1 V (Proc.devRef .tc main_v12) = V (Proc.devRef .tc main_v12) := by
  after_results <;> rfl

/-- The first stretch: the column-index row is the positions 0 … 63 as a [1, 64] array. -/
theorem v12_of (V : Valuation τ sig (Elt Ideal)) :
    StableHlo.after hostOps1 V (Proc.devRef .tc main_v12)
      = (shapeCast S1x64 (iotaInDim S64 32 0) Gen.shapeCasts_S64_S1x64 : IVec S1x64 32) := by
  after_results <;> rfl

/-- The first stretch: the row-index column is the positions 0 … 4095 as a [4096, 1] array. -/
theorem v10_of (V : Valuation τ sig (Elt Ideal)) :
    StableHlo.after hostOps1 V (Proc.devRef .tc main_v10)
      = (shapeCast S4096x1 (iotaInDim S4096 32 0) Gen.shapeCasts_S4096_S4096x1 : IVec S4096x1 32) := by
  after_results <;> rfl

/-- The first stretch: the divisor is the constant 64. -/
theorem c_of (V : Valuation τ sig (Elt Ideal)) :
    StableHlo.after hostOps1 V (Proc.devRef .tc main_c) = (constantI S_ 32 64#32 : IVec S_ 32) := by
  after_results <;> rfl

/-! ## The words -/

/-- On a nonnegative word the remainder by 64 needs no sign fix-up: the divisor is kept (it is not zero), the signed
    remainder is the value modulo 64, it is not negative and neither is the divisor, so the selection keeps it. -/
theorem fix_word (x : BitVec 32) (hx : 2 * x.toNat < 2 ^ 32) :
    Scalar.select
        (IntOp.andi
          (IntOp.cmpi .ne
            (IntOp.cmpi .slt (IntOp.remsi .host x (Scalar.select (IntOp.cmpi .eq 64#32 0#32) 1#32 64#32)) 0#32)
            (IntOp.cmpi .slt (Scalar.select (IntOp.cmpi .eq 64#32 0#32) 1#32 64#32) 0#32))
          (IntOp.cmpi .ne (IntOp.remsi .host x (Scalar.select (IntOp.cmpi .eq 64#32 0#32) 1#32 64#32)) 0#32))
        (IntOp.addi (IntOp.remsi .host x (Scalar.select (IntOp.cmpi .eq 64#32 0#32) 1#32 64#32))
          (Scalar.select (IntOp.cmpi .eq 64#32 0#32) 1#32 64#32))
        (IntOp.remsi .host x (Scalar.select (IntOp.cmpi .eq 64#32 0#32) 1#32 64#32))
      = BitVec.ofNat 32 (x.toNat % 64) := by
  have hw : Scalar.select (IntOp.cmpi .eq 64#32 0#32) 1#32 64#32 = 64#32 := by decide
  rw [hw]
  have hr : (IntOp.remsi .host x 64#32).toNat = x.toNat % 64 :=
    IntOp.toNat_remsi .host hx 64 (by omega) (by omega)
  generalize IntOp.remsi .host x 64#32 = r at hr ⊢
  have hlt : r.toNat < 64 := by rw [hr]; exact Nat.mod_lt _ (by omega)
  have hs : IntOp.cmpi .slt r 0#32 = 0#1 := by
    have h : r.slt 0#32 = false := by
      rw [Bool.eq_false_iff, ne_eq, BitVec.slt_iff_toInt_lt,
        StableHlo.Predicate.toInt_eq_toNat_of_lt (a := r) (by omega)]
      show ¬ ((r.toNat : Int) < 0)
      omega
    show BitVec.ofBool (r.slt 0#32) = 0#1
    rw [h]; rfl
  have hd : IntOp.cmpi .slt 64#32 0#32 = 0#1 := by decide
  rw [hs, hd]
  have hz : ∀ c : BitVec 1, IntOp.andi (IntOp.cmpi .ne 0#1 0#1) c = 0#1 := by decide
  rw [hz, select_zero]
  apply BitVec.eq_of_toNat_eq
  rw [hr, BitVec.toNat_ofNat]
  omega

/-- `remFix` by the constant 64, read at a row whose word is nonnegative: the word of its value modulo 64. -/
theorem remFix_apply (x : IVec S4096x1 32) (i : S4096x1.Idx) (hx : 2 * (x i).toNat < 2 ^ 32) :
    remFix x (constantI S_ 32 64#32) i = BitVec.ofNat 32 ((x i).toNat % 64) :=
  fix_word (x i) hx

/-- An equality test of words widened to a float reads one where the words agree and zero elsewhere. -/
theorem uitofp_cmpi_apply {s : Shape} (a b : IVec s 32) (i : s.Idx) :
    uitofp (F := Ideal) .bf16 (cmpi .eq a b) i = if a i = b i then (1 : EReal) else 0 := by
  show (((IntOp.cmpi .eq (a i) (b i)).toNat : ℝ) : EReal) = _
  by_cases h : a i = b i
  · rw [if_pos h, StableHlo.Predicate.cmpi_eq_iff.mpr h]
    show (((1 : ℕ) : ℝ) : EReal) = 1
    rw [Nat.cast_one, EReal.coe_one]
  · have h0 : IntOp.cmpi .eq (a i) (b i) = 0#1 := by
      have hne : IntOp.cmpi .eq (a i) (b i) ≠ 1#1 := fun e => h (StableHlo.Predicate.cmpi_eq_iff.mp e)
      revert hne
      generalize IntOp.cmpi .eq (a i) (b i) = t
      revert t
      decide
    rw [if_neg h, h0]
    show (((0 : ℕ) : ℝ) : EReal) = 0
    rw [Nat.cast_zero, EReal.coe_zero]

/-! ## The reads -/

/-- A shape cast read at an index is the operand at the index of the same row-major position. -/
theorem shapeCast_at {α : Type} {s t : Shape} (x : s.Idx → α) (h : s.ShapeCasts t) (j : t.Idx) (k : s.Idx)
    (hk : (s.rowMajor k).val = (t.rowMajor j).val) : shapeCast t x h j = x k := by
  unfold shapeCast
  exact congrArg x (Shape.reshapeEquiv_eq_of_rowMajor h hk)

theorem ij_eq {n q : Nat} (a : Fin n) (b : Fin q) : StableHlo.Predicate.ij a b = ix2 a b := by
  funext d; match d with | ⟨0, _⟩ => rfl | ⟨1, _⟩ => rfl

/-- The row-index column reads, at row `k`, the word of `k`. -/
theorem col_iota (k : Fin 4096) :
    (shapeCast S4096x1 (iotaInDim S4096 32 0) Gen.shapeCasts_S4096_S4096x1 : IVec S4096x1 32) (StableHlo.Predicate.ixP k)
      = BitVec.ofNat 32 k.val := by
  rw [shapeCast_at _ _ _ (ix1 k) (by
    rw [Shape.rowMajor_val_two, Shape.rowMajor_val_one]
    show k.val = k.val * 1 + 0
    omega)]
  rfl

/-- The column-index row reads, at column `j`, the word of `j`. -/
theorem row_iota (j : Fin 64) :
    (shapeCast S1x64 (iotaInDim S64 32 0) Gen.shapeCasts_S64_S1x64 : IVec S1x64 32) (StableHlo.Predicate.i1q j)
      = BitVec.ofNat 32 j.val := by
  rw [shapeCast_at _ _ _ (ix1 j) (by
    rw [Shape.rowMajor_val_two, Shape.rowMajor_val_one]
    show j.val = 0 * 64 + j.val
    omega)]
  rfl

end SelTable

open SelTable in
/-- The second kernel's selector operand is one exactly where the row index modulo 64 is the column index. -/
theorem V5_v17 (c : Dev nD) (k : Fin 4096) (j : Fin 64) :
    V5 m ρ c main_v17 (ix2 k j) = if k.val % 64 = j.val then (1 : EReal) else 0 := by
  have e17 := v17_of (W4 m ρ c)
  have e13 : W4 m ρ c (Proc.devRef .tc main_v13) = _ := v13_of (W3 m ρ c)
  have e12 : W4 m ρ c (Proc.devRef .tc main_v12) = W3 m ρ c (Proc.devRef .tc main_v12) := v12_keep (W3 m ρ c)
  have e12' : W3 m ρ c (Proc.devRef .tc main_v12) = _ := v12_of (W2 m ρ c)
  have e10 : W3 m ρ c (Proc.devRef .tc main_v10) = _ := v10_of (W2 m ρ c)
  have ec : W3 m ρ c (Proc.devRef .tc main_c) = _ := c_of (W2 m ρ c)
  show StableHlo.after hostOps1_2 (W4 m ρ c) (Proc.devRef .tc main_v17) (ix2 k j) = _
  rw [e17, e13, e12, e12', e10, ec, uitofp_cmpi_apply, ← ij_eq,
    StableHlo.Predicate.bcast_of_col, StableHlo.Predicate.bcast_of_row, row_iota]
  have hk := k.isLt
  have hj := j.isLt
  have hx : (BitVec.ofNat 32 k.val).toNat = k.val := by rw [BitVec.toNat_ofNat]; omega
  rw [remFix_apply _ _ (by rw [col_iota, hx]; omega), col_iota, hx]
  by_cases h : k.val % 64 = j.val
  · rw [if_pos h, if_pos (by rw [h])]
  · rw [if_neg h, if_neg]
    intro e
    apply h
    have := congrArg BitVec.toNat e
    rw [BitVec.toNat_ofNat, BitVec.toNat_ofNat] at this
    omega

end Cert.KernelIdeal.Fold
end
-- ==== Proof.SelLaw.lean ====
import proofs.«134431_j65051574665680_1_alg».proof.Proof.Spec
import Mathlib.Algebra.BigOperators.Group.Finset.Basic

noncomputable section

namespace Cert.Spec

open Idealize.ShloMosaic Idealize.ShloMosaic.ValueIdx

/-- A sum over `k < 4096` of terms that vanish unless `k mod 64 = j` is the sum over the `64` positions
`k = 64 a + j`: the map `a ↦ 64 a + j` is injective, and every `k` with `k mod 64 = j` is `64 (k / 64) + j`. -/
theorem sum_ite_mod_eq_sum_hid {M : Type*} [AddCommMonoid M] (f : Fin 4096 → M) (j : Fin 64) :
    ∑ k : Fin 4096, (if k.val % 64 = j.val then f k else 0) = ∑ a : Fin 64, f (hid a j) := by
  symm
  apply Finset.sum_of_injOn (fun a => hid a j)
  · intro a _ a' _ h
    have h' := congrArg Fin.val h
    simp only [hid] at h'
    exact Fin.ext (by omega)
  · intro a _
    exact Finset.mem_coe.2 (Finset.mem_univ _)
  · intro k _ hk
    rw [if_neg]
    intro hmod
    apply hk
    refine ⟨⟨k.val / 64, by have := k.isLt; omega⟩, Finset.mem_coe.2 (Finset.mem_univ _), ?_⟩
    apply Fin.ext
    simp only [hid]
    omega
  · intro a _
    rw [if_pos]
    simp only [hid]
    have := j.isLt
    omega

/-- The same statement at one entry `(e, j)`. -/
theorem edgeSelAt_eq_edgeFoldAt {E D : ℕ} (ef : (⟨2, ![E, D]⟩ : Shape).Idx → EReal) (w : (⟨2, ![D, 4096]⟩ : Shape).Idx → EReal)
    (b2 : (⟨2, ![1, 4096]⟩ : Shape).Idx → EReal) (b : (⟨1, ![4096]⟩ : Shape).Idx → EReal) (sel : (⟨2, ![4096, 64]⟩ : Shape).Idx → EReal)
    (hb : ∀ k : Fin 4096, b2 (ix2 0 k) = b (ix1 k))
    (hsel : ∀ (k : Fin 4096) (j : Fin 64), sel (ix2 k j) = if k.val % 64 = j.val then (1 : EReal) else 0)
    (e : Fin E) (j : Fin 64) :
    edgeSelAt ef w b2 sel e j = edgeFoldAt ef w b e j := by
  unfold edgeSelAt edgeFoldAt
  -- the bias row and the bias vector are the same function of the hidden position
  have hbf : (fun k : Fin 4096 => b2 (ix2 0 k)) = (fun k : Fin 4096 => b (ix1 k)) := funext hb
  rw [hbf]
  -- a product with the selector is the factor itself where `k mod 64 = j`, and `0` elsewhere
  simp only [hsel, mul_ite, mul_one, mul_zero]
  exact sum_ite_mod_eq_sum_hid _ _

/-- Contracting the activation with the modulo-64 selector is summing its 64 × 64 view over the first axis. -/
theorem edgeSel_eq_edgeFold {E D : ℕ} (ef : (⟨2, ![E, D]⟩ : Shape).Idx → EReal) (w : (⟨2, ![D, 4096]⟩ : Shape).Idx → EReal)
    (b2 : (⟨2, ![1, 4096]⟩ : Shape).Idx → EReal) (b : (⟨1, ![4096]⟩ : Shape).Idx → EReal) (sel : (⟨2, ![4096, 64]⟩ : Shape).Idx → EReal)
    (hb : ∀ k : Fin 4096, b2 (ix2 0 k) = b (ix1 k))
    (hsel : ∀ (k : Fin 4096) (j : Fin 64), sel (ix2 k j) = if k.val % 64 = j.val then (1 : EReal) else 0) :
    edgeSel ef w b2 sel = edgeFold ef w b := by
  funext i
  exact edgeSelAt_eq_edgeFoldAt ef w b2 b sel hb hsel (i 0) (i 1)

end Cert.Spec

end
-- ==== Proof.KernelValue.lean ====
/-
  The idealized kernel's result as the layer's function of the ten arguments.

  The result buffer is the third kernel's output array. Its four operands at that kernel's entry are: the first
  kernel's second output (the nodes' own features through the pre-aggregation layer), the host chain's mean of messages
  — of the first kernel's first output and the second kernel's output —, and the two transposed weights. The second
  kernel contracts the edge activation with the selector that is one where the row index is the column index modulo 64,
  which is the sum over the first axis of the activation's 64 × 64 view.
-/
import proofs.«134431_j65051574665680_1_alg».proof.Proof.Gen.KernelIdeal.Frame
import proofs.«134431_j65051574665680_1_alg».proof.Proof.Final
import proofs.«134431_j65051574665680_1_alg».proof.Proof.Region0
import proofs.«134431_j65051574665680_1_alg».proof.Proof.Region1
import proofs.«134431_j65051574665680_1_alg».proof.Proof.Region2
import proofs.«134431_j65051574665680_1_alg».proof.Proof.FoldTail
import proofs.«134431_j65051574665680_1_alg».proof.Proof.FoldHead
import proofs.«134431_j65051574665680_1_alg».proof.Proof.SelTable
import proofs.«134431_j65051574665680_1_alg».proof.Proof.SelLaw

set_option maxRecDepth 16384

noncomputable section

namespace Cert.KernelIdeal.Value

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The second kernel's output at its exit: the edge activation summed over the first axis of its 64 × 64 view. -/
theorem edge_value (c : Dev nD) :
    (dat1 (V5 m ρ) c).arrAt 4 cfg1.N
      = Cert.Spec.edgeFold (m ((c : Thread nD τ).loc main_arg2))
          (transpose S32x4096 [1, 0] (m ((c : Thread nD τ).loc main_arg6)) Facts₀.transposes_S4096x32_S32x4096_1_0) (m ((c : Thread nD τ).loc main_arg7)) := by
  rw [Region1.s_value (V5 m ρ) c, Fold.V5_v5, Fold.V5_v7]
  exact Cert.Spec.edgeSel_eq_edgeFold _ _ _ _ _ (Fold.V5_v8 m ρ c) (Fold.V5_v17 m ρ c)

/-- The first kernel's outputs at its exit: the pre-aggregation layer on the neighbour features and on the nodes' own. -/
theorem hn_value (c : Dev nD) :
    (dat0 (V1 m ρ) c).arrAt 3 cfg0.N
      = Cert.Spec.linRelu (m ((c : Thread nD τ).loc main_arg0)) (transpose S256x64 [1, 0] (m ((c : Thread nD τ).loc main_arg3)) Facts₀.transposes_S64x256_S256x64_1_0) := by
  rw [Region0.hn_value (V1 m ρ) c, Fold.V1_v0, Fold.V1_v3]

theorem hs_value (c : Dev nD) :
    (dat0 (V1 m ρ) c).arrAt 4 cfg0.N
      = Cert.Spec.linRelu (m ((c : Thread nD τ).loc main_arg1)) (transpose S256x64 [1, 0] (m ((c : Thread nD τ).loc main_arg3)) Facts₀.transposes_S64x256_S256x64_1_0) := by
  rw [Region0.hs_value (V1 m ρ) c, Fold.V1_v1, Fold.V1_v3]

/-- The result buffer after the last kernel is the layer's function of the arguments. -/
theorem result (c : Dev nD) :
    W8 m ρ c (Proc.devRef .tc main_v45)
      = Cert.Final.zK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W8 m ρ c (Proc.devRef .tc main_v45) = (dat2 (V7 m ρ) c).arrAt 4 cfg2.N := W8_arr m ρ c 4
  rw [h, Region2.z_value (V7 m ρ) c, Fold.V7_v39, Fold.V7_v40, Fold.V7_v42, Fold.V7_v44, hs_value, hn_value, edge_value]
  rfl

end Cert.KernelIdeal.Value

end
-- ==== Proof.RefValue.lean ====
import proofs.«134431_j65051574665680_1_alg».proof.Defs
import proofs.«134431_j65051574665680_1_alg».proof.Proof.Gen.ReferenceIdeal.Run
import proofs.«134431_j65051574665680_1_alg».proof.Proof.Gen.ReferenceIdeal.Read
import proofs.«134431_j65051574665680_1_alg».proof.Proof.Final
import proofs.«134431_j65051574665680_1_alg».proof.Proof.LibPlainDot

set_option maxRecDepth 16384

noncomputable section

namespace Cert.ReferenceIdeal.RefValue

open Idealize.ShloMosaic Idealize.ShloMosaic.TcCoe Idealize.ShloMosaic.ValueIdx
open Idealize.SL.Sem
open Cert.ReferenceIdeal Cert.ReferenceIdeal.Facts₀

/-! ## Whole-array readings of the three stages -/

section Stages
open Cert.Spec

/-- The scalar zero spread over any shape reads zero everywhere. -/
theorem zeroSplat_apply {S : Shape} (h : S_.BroadcastsInDim S (![] : Fin 0 → Fin S.rank)) (i : S.Idx) :
    broadcastInDim S ![] h (constant (F := Ideal) S_ .f32 0x00000000#32) i = (0 : EReal) := by
  rw [broadcastInDim_apply _ h _ i (fun a => a.elim0) (fun a => a.elim0)]
  rw [constant_apply]
  exact Ideal.ofBits_zero_f32

/-- A plain matrix product followed by the maximum with the zero array is the bias-free linear layer with relu. -/
theorem linRelu_eq {R K C : ℕ} (d : DotDims (⟨2, ![R, K]⟩ : Shape) (⟨2, ![K, C]⟩ : Shape) (⟨2, ![R, C]⟩ : Shape))
    (hlc : d.lhsContracting = [1]) (hrc : d.rhsContracting = [0]) (hln : d.lhsNonContracting = [0])
    (hrn : d.rhsNonContracting = [1]) (hlb : d.lhsBatch = []) (hrb : d.rhsBatch = [])
    (hz : S_.BroadcastsInDim (⟨2, ![R, C]⟩ : Shape) (![] : Fin 0 → Fin 2))
    (x : FVec Ideal (⟨2, ![R, K]⟩ : Shape) .f32) (w : FVec Ideal (⟨2, ![K, C]⟩ : Shape) .f32) :
    maximumf (Host.dotGeneral (F := Ideal) d none x w)
        (broadcastInDim (⟨2, ![R, C]⟩ : Shape) ![] hz (constant (F := Ideal) S_ .f32 0x00000000#32))
      = Cert.Spec.linRelu x w := by
  funext i
  obtain ⟨p, q, rfl⟩ : ∃ (p : Fin R) (q : Fin C), i = ix2 p q := ⟨i 0, i 1, eq_ix2 i⟩
  rw [maximumf_apply, zeroSplat_apply]
  show max (FloatOps.dotGeneral d none HostSchedule.single x w (ix2 p q)) 0 = _
  rw [Cert.PlainDot.dotGeneral_apply (φ₁ := .f32) (φ₂ := .f32) d hlc hrc hln hrn hlb hrb none HostSchedule.single x w p q]
  rfl

/-- The sum of two arrays followed by the maximum with the zero array, entry by entry. -/
theorem addRelu_eq {R C : ℕ} (hz : S_.BroadcastsInDim (⟨2, ![R, C]⟩ : Shape) (![] : Fin 0 → Fin 2))
    (A B : FVec Ideal (⟨2, ![R, C]⟩ : Shape) .f32) :
    maximumf (addf A B) (broadcastInDim (⟨2, ![R, C]⟩ : Shape) ![] hz (constant (F := Ideal) S_ .f32 0x00000000#32))
      = fun i => max (A i + B i) 0 := by
  funext i
  rw [maximumf_apply, zeroSplat_apply, addf_apply]

/-- The edge transform's hidden activation: product with the weights, plus the bias row, maximum with zero. -/
theorem edgeAct_apply (ef : FVec Ideal S65536x32 .f32) (w : FVec Ideal S32x4096 .f32) (b : FVec Ideal S4096 .f32)
    (e : Fin 65536) (k : Fin 4096) :
    maximumf (addf (Host.dotGeneral (F := Ideal) dot_S65536x32_S32x4096_S65536x4096_1_0_0_1_n_n none ef w)
        (broadcastInDim S65536x4096 ![0, 1] bcast_S1x4096_S65536x4096_0_1
          (broadcastInDim S1x4096 ![1] bcast_S4096_S1x4096_1 b)))
      (broadcastInDim S65536x4096 ![] bcast_S_S65536x4096 (constant (F := Ideal) S_ .f32 0x00000000#32)) (ix2 e k)
      = Cert.Spec.edgeActAt ef w (fun k => b (ix1 k)) e k := by
  rw [maximumf_apply, zeroSplat_apply, addf_apply]
  show max (FloatOps.dotGeneral dot_S65536x32_S32x4096_S65536x4096_1_0_0_1_n_n none HostSchedule.single ef w (ix2 e k) + _) 0 = _
  rw [Cert.PlainDot.dotGeneral_apply (φ₁ := .f32) (φ₂ := .f32) dot_S65536x32_S32x4096_S65536x4096_1_0_0_1_n_n
    rfl rfl rfl rfl rfl rfl none HostSchedule.single ef w e k]
  rw [broadcastInDim_apply _ bcast_S1x4096_S65536x4096_0_1 _ (ix2 e k) (ix2 (0 : Fin 1) k) (fun a => match a with
    | ⟨0, _⟩ => by show 0 = if (1 : Nat) = 1 then 0 else e.val; rw [if_pos rfl]
    | ⟨1, _⟩ => by show k.val = if (4096 : Nat) = 1 then 0 else k.val; rw [if_neg (by decide)])]
  rw [broadcastInDim_apply _ bcast_S4096_S1x4096_1 b (ix2 (0 : Fin 1) k) (ix1 k) (fun a => match a with
    | ⟨0, _⟩ => by show k.val = if (4096 : Nat) = 1 then 0 else k.val; rw [if_neg (by decide)])]
  rfl

/-- The sum over the middle axis of the three-axis view of an array of 4096-entry rows: entry (e, j) is the sum over
    a of the row's entries at positions 64 a + j. -/
theorem foldMid_apply (y : FVec Ideal S65536x4096 .f32) (e : Fin 65536) (j : Fin 64) :
    Host.reduceAdd (F := Ideal) (shapeCast S65536x64x64 y shapeCasts_S65536x4096_S65536x64x64)
        (constant (F := Ideal) S_ .f32 0x00000000#32) reducesTo_S65536x64x64_S65536x64_d1 h_S_ (ix2 e j)
      = ∑ a : Fin 64, y (ix2 e (Cert.Spec.hid a j)) := by
  simp only [Host.reduceAdd, Ideal.hostReduceAdd_def]
  rw [Ideal.hostReduceAdd_single reducesTo_S65536x64x64_S65536x64_d1 (by decide)]
  rw [constant_apply, Ideal.ofBits_zero_f32, zero_add]
  refine Finset.sum_congr rfl fun a _ => ?_
  refine (shapeCast_apply y shapeCasts_S65536x4096_S65536x64x64 _ (ix2 e (Cert.Spec.hid a j)) ?_)
  rewrite [Shape.rowMajor_val_two, Shape.rowMajor_val_three]
  show e.val * 4096 + (a.val * 64 + j.val) = (e.val * 64 + a.val) * 64 + j.val
  omega

/-- The edge transform summed over the first axis of its 64 × 64 view. -/
theorem edgeFold_eq (ef : FVec Ideal S65536x32 .f32) (w : FVec Ideal S32x4096 .f32) (b : FVec Ideal S4096 .f32) :
    Host.reduceAdd (F := Ideal) (shapeCast S65536x64x64
        (maximumf (addf (Host.dotGeneral (F := Ideal) dot_S65536x32_S32x4096_S65536x4096_1_0_0_1_n_n none ef w)
            (broadcastInDim S65536x4096 ![0, 1] bcast_S1x4096_S65536x4096_0_1
              (broadcastInDim S1x4096 ![1] bcast_S4096_S1x4096_1 b)))
          (broadcastInDim S65536x4096 ![] bcast_S_S65536x4096 (constant (F := Ideal) S_ .f32 0x00000000#32)))
        shapeCasts_S65536x4096_S65536x64x64)
        (constant (F := Ideal) S_ .f32 0x00000000#32) reducesTo_S65536x64x64_S65536x64_d1 h_S_
      = Cert.Spec.edgeFold ef w b := by
  funext i
  obtain ⟨e, j, rfl⟩ : ∃ (e : Fin 65536) (j : Fin 64), i = ix2 e j := ⟨i 0, i 1, eq_ix2 i⟩
  rw [foldMid_apply]
  show _ = ∑ a : Fin 64, Cert.Spec.edgeActAt ef w (fun k => b (ix1 k)) e (Cert.Spec.hid a j)
  exact Finset.sum_congr rfl fun a _ => edgeAct_apply ef w b e (Cert.Spec.hid a j)

/-- Two relu layers added, then the maximum with the zero array: the combining stage. -/
theorem combine_eq {R K C : ℕ} (hz : S_.BroadcastsInDim (⟨2, ![R, C]⟩ : Shape) (![] : Fin 0 → Fin 2))
    (hs ng : FVec Ideal (⟨2, ![R, K]⟩ : Shape) .f32) (ws wn : FVec Ideal (⟨2, ![K, C]⟩ : Shape) .f32) :
    maximumf (addf (F := Ideal) (s := (⟨2, ![R, C]⟩ : Shape)) (φ := .f32) (Cert.Spec.linRelu hs ws) (Cert.Spec.linRelu ng wn))
        (broadcastInDim (⟨2, ![R, C]⟩ : Shape) ![] hz (constant (F := Ideal) S_ .f32 0x00000000#32))
      = Cert.Spec.combine hs ng ws wn := by
  rw [addRelu_eq]
  rfl

end Stages

/-- The reference's composed term, at the extended reals, is the layer's function of the arguments. -/
theorem result_eq (a0 a1 : FVec Ideal S8192x256 .f32) (a2 : FVec Ideal S65536x32 .f32) (a3 : FVec Ideal S64x256 .f32)
    (a4 a5 : FVec Ideal S64x64 .f32) (a6 : FVec Ideal S4096x32 .f32) (a7 : FVec Ideal S4096 .f32) (a8 a9 : Vec Ideal S65536 .i32) :
    maximumf (addf (maximumf (Host.dotGeneral dot_S8192x64_S64x64_S8192x64_1_0_0_1_n_n none (maximumf (Host.dotGeneral dot_S8192x256_S256x64_S8192x64_1_0_0_1_n_n none (a1) (transpose S256x64 [1, 0] (a3) transposes_S64x256_S256x64_1_0)) (broadcastInDim S8192x64 ![] bcast_S_S8192x64 (constant S_ .f32 0x00000000#32))) (transpose S64x64 [1, 0] (a4) transposes_S64x64_S64x64_1_0)) (broadcastInDim S8192x64 ![] bcast_S_S8192x64 (constant S_ .f32 0x00000000#32))) (maximumf (Host.dotGeneral dot_S8192x64_S64x64_S8192x64_1_0_0_1_n_n none (Host.divf (Host.scatterAdd scatter_S8192x64_S65536x1_S65536x64_1_0_0_1 (broadcastInDim S8192x64 ![] bcast_S_S8192x64 (constant S_ .f32 0x00000000#32)) (broadcastInDim S65536x1 ![0] bcast_S65536_S65536x1_0 (a9)) (mulf (Host.gather gather_S8192x64_S65536x1_S65536x64_1_0_n_n_0_1_164 (maximumf (Host.dotGeneral dot_S8192x256_S256x64_S8192x64_1_0_0_1_n_n none (a0) (transpose S256x64 [1, 0] (a3) transposes_S64x256_S256x64_1_0)) (broadcastInDim S8192x64 ![] bcast_S_S8192x64 (constant S_ .f32 0x00000000#32))) (broadcastInDim S65536x1 ![0] bcast_S65536_S65536x1_0 (select (cmpi .slt (a8) (broadcastInDim S65536 ![] bcast_S_S65536 (constantI S_ 32 0#32))) (addi (a8) (broadcastInDim S65536 ![] bcast_S_S65536 (constantI S_ 32 8192#32))) (a8)))) (Host.reduceAdd (shapeCast _ (maximumf (addf (Host.dotGeneral dot_S65536x32_S32x4096_S65536x4096_1_0_0_1_n_n none (a2) (transpose S32x4096 [1, 0] (a6) transposes_S4096x32_S32x4096_1_0)) (broadcastInDim S65536x4096 ![0, 1] bcast_S1x4096_S65536x4096_0_1 (broadcastInDim S1x4096 ![1] bcast_S4096_S1x4096_1 (a7)))) (broadcastInDim S65536x4096 ![] bcast_S_S65536x4096 (constant S_ .f32 0x00000000#32))) shapeCasts_S65536x4096_S65536x64x64) (constant S_ .f32 0x00000000#32) reducesTo_S65536x64x64_S65536x64_d1 h_S_))) (broadcastInDim S8192x64 ![0, 1] bcast_S8192x1_S8192x64_0_1 (broadcastInDim S8192x1 ![0] bcast_S8192_S8192x1_0 (maximumf (Host.scatterAdd scatter_S8192_S65536x1_S65536_n_0_0_1 (broadcastInDim S8192 ![] bcast_S_S8192 (constant S_ .f32 0x00000000#32)) (broadcastInDim S65536x1 ![0] bcast_S65536_S65536x1_0 (a9)) (broadcastInDim S65536 ![] bcast_S_S65536 (constant S_ .f32 0x3F800000#32))) (broadcastInDim S8192 ![] bcast_S_S8192 (constant S_ .f32 0x3F800000#32)))))) (transpose S64x64 [1, 0] (a5) transposes_S64x64_S64x64_1_0)) (broadcastInDim S8192x64 ![] bcast_S_S8192x64 (constant S_ .f32 0x00000000#32)))) (broadcastInDim S8192x64 ![] bcast_S_S8192x64 (constant S_ .f32 0x00000000#32))
      = Cert.Final.zR a0 a1 a2 a3 a4 a5 a6 a7 a8 a9 := by
  unfold Cert.Final.zR Cert.Chain.neighR
  rw [linRelu_eq dot_S8192x256_S256x64_S8192x64_1_0_0_1_n_n rfl rfl rfl rfl rfl rfl bcast_S_S8192x64 a1,
    linRelu_eq dot_S8192x256_S256x64_S8192x64_1_0_0_1_n_n rfl rfl rfl rfl rfl rfl bcast_S_S8192x64 a0,
    edgeFold_eq,
    linRelu_eq dot_S8192x64_S64x64_S8192x64_1_0_0_1_n_n rfl rfl rfl rfl rfl rfl bcast_S_S8192x64
      (Cert.Spec.linRelu a1 (transpose S256x64 [1, 0] a3 transposes_S64x256_S256x64_1_0)),
    linRelu_eq dot_S8192x64_S64x64_S8192x64_1_0_0_1_n_n rfl rfl rfl rfl rfl rfl bcast_S_S8192x64,
    combine_eq]

end Cert.ReferenceIdeal.RefValue

end
-- ==== Proof.lean ====
/-
  The certificate of one message-passing layer: three kernels (the pre-aggregation layer on both feature arrays; the
  edge transform contracted with a modulo-64 selector; the combining layer) around a gather / scatter-add mean on the
  host, against the plain reference that reshapes the edge transform to 64 × 64 per edge and sums its first axis.

  On the extended reals a change of float format is the identity, a kernel's matrix product into a zero accumulator and
  the host's contraction are the same finite sum, and the selector's zeros annihilate every term (0 · x = 0 for every
  extended real, the infinities included), so no finiteness of the inputs is used. The host chain between the kernels is
  the same sequence of operations in both programs and is carried as one unopened function. Both programs therefore end
  with the same function of the ten arguments (Proof/Final.lean).

  The frames of the two kernel programs are the generated frame proofs; the reference's frame is its generated run with
  the result dropped; the idealization rewrote nothing, so there is nothing to preserve.
-/
import proofs.«134431_j65051574665680_1_alg».proof.Defs
import proofs.«134431_j65051574665680_1_alg».proof.Proof.Gen.Kernel.Frame
import proofs.«134431_j65051574665680_1_alg».proof.Proof.Gen.KernelIdeal.Frame
import proofs.«134431_j65051574665680_1_alg».proof.Proof.Gen.ReferenceIdeal.Run
import proofs.«134431_j65051574665680_1_alg».proof.Proof.Gen.Pre_finite_inputs
import proofs.«134431_j65051574665680_1_alg».proof.Proof.KRun
import proofs.«134431_j65051574665680_1_alg».proof.Proof.KernelValue
import proofs.«134431_j65051574665680_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the layer's function of the arguments, which agree. -/
theorem algebraic : Cert.algebraic_KernelIdeal_ReferenceIdeal := by
  intro m ρ m' ρ' _ hagree
  refine ⟨fun c => Cert.Final.zK
      (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7))
      (m ((c.tc : Thread _ _).loc Cert.KernelIdeal.main_arg8)) (m ((c.tc : Thread _ _).loc Cert.KernelIdeal.main_arg9)), ?_, ?_⟩
  · exact (θ_run Cert.KernelIdeal.defs _ _).mono
      (fun _ h c => ⟨(h c).1.trans (Cert.KernelIdeal.Value.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.result_eq, e0, e1, e2, e3, e4, e5, e6, e7, e8, e9, Cert.Final.zK_eq_zR]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
